-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S25000x512 : Shape := ⟨2, ![25000, 512]⟩
abbrev S25000x1024 : Shape := ⟨2, ![25000, 1024]⟩
abbrev S5000x1024 : Shape := ⟨2, ![5000, 1024]⟩
abbrev S512x512 : Shape := ⟨2, ![512, 512]⟩
abbrev S512 : Shape := ⟨1, ![512]⟩
abbrev S64x1024 : Shape := ⟨2, ![64, 1024]⟩
abbrev S64 : Shape := ⟨1, ![64]⟩
abbrev S400000 : Shape := ⟨1, ![400000]⟩
abbrev S80000 : Shape := ⟨1, ![80000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S25000x512 : S_.BroadcastsInDim S25000x512 (![] : Fin 0 → Fin S25000x512.rank)
  reducesTo_S25000x512_S_d0_1 : S25000x512.ReducesTo [0, 1] S_
  bcast_S_S25000x1024 : S_.BroadcastsInDim S25000x1024 (![] : Fin 0 → Fin S25000x1024.rank)
  reducesTo_S25000x1024_S_d0_1 : S25000x1024.ReducesTo [0, 1] S_
  bcast_S_S5000x1024 : S_.BroadcastsInDim S5000x1024 (![] : Fin 0 → Fin S5000x1024.rank)
  reducesTo_S5000x1024_S_d0_1 : S5000x1024.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S400000 : S_.BroadcastsInDim S400000 (![] : Fin 0 → Fin S400000.rank)
  reducesTo_S400000_S_d0 : S400000.ReducesTo [0] S_
  bcast_S_S80000 : S_.BroadcastsInDim S80000 (![] : Fin 0 → Fin S80000.rank)
  reducesTo_S80000_S_d0 : S80000.ReducesTo [0] S_

variable [Facts]

def fn_part4 {F : FTy → Type} [FloatOps F] (main_arg13 : IVec S80000 32) (main_v65 : IVec S_ 1) (main_v66 : IVec S80000 32) : IVec S_ 1 :=
  let main_v67 : IVec S80000 1 := cmpi .slt main_arg13 main_v66
  let main_c_27 : IVec S_ 1 := constantI S_ 1 1#1
  let main_v68 : IVec S_ 1 := (fun x v => Host.reduce IntOp.andi x v reducesTo_S80000_S_d0 h_S_) main_v67 main_c_27
  let main_v69 : IVec S_ 1 := andi main_v65 main_v68
  main_v69

def fn_part3 {F : FTy → Type} [FloatOps F] (main_arg11 : IVec S400000 32) (main_arg13 : IVec S80000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S400000 32 := broadcastInDim S400000 ![] bcast_S_S400000 main_c_20
  let main_v55 : IVec S400000 1 := cmpi .sge main_arg11 main_v54
  let main_c_21 : IVec S_ 1 := constantI S_ 1 1#1
  let main_v56 : IVec S_ 1 := (fun x v => Host.reduce IntOp.andi x v reducesTo_S400000_S_d0 h_S_) main_v55 main_c_21
  let main_v57 : IVec S_ 1 := andi main_v53 main_v56
  let main_c_22 : IVec S_ 32 := constantI S_ 32 100000#32
  let main_v58 : IVec S400000 32 := broadcastInDim S400000 ![] bcast_S_S400000 main_c_22
  let main_v59 : IVec S400000 1 := cmpi .slt main_arg11 main_v58
  let main_c_23 : IVec S_ 1 := constantI S_ 1 1#1
  let main_v60 : IVec S_ 1 := (fun x v => Host.reduce IntOp.andi x v reducesTo_S400000_S_d0 h_S_) main_v59 main_c_23
  let main_v61 : IVec S_ 1 := andi main_v57 main_v60
  let main_c_24 : IVec S_ 32 := constantI S_ 32 0#32
  let main_v62 : IVec S80000 32 := broadcastInDim S80000 ![] bcast_S_S80000 main_c_24
  let main_v63 : IVec S80000 1 := cmpi .sge main_arg13 main_v62
  let main_c_25 : IVec S_ 1 := constantI S_ 1 1#1
  let main_v64 : IVec S_ 1 := (fun x v => Host.reduce IntOp.andi x v reducesTo_S80000_S_d0 h_S_) main_v63 main_c_25
  let main_v65 : IVec S_ 1 := andi main_v61 main_v64
  let main_c_26 : IVec S_ 32 := constantI S_ 32 25000#32
  let main_v66 : IVec S80000 32 := broadcastInDim S80000 ![] bcast_S_S80000 main_c_26
  fn_part4 (F := F) main_arg13 main_v65 main_v66

def fn_part2 {F : FTy → Type} [FloatOps F] (main_arg7 : FVec F S512x512 .f32) (main_arg8 : FVec F S512 .f32) (main_arg9 : FVec F S64x1024 .f32) (main_arg10 : FVec F S64 .f32) (main_arg11 : IVec S400000 32) (main_arg13 : IVec S80000 32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S64x1024 .f32 := Host.absf main_arg9
  let main_cst_16 : FVec F S_ .f32 := constant S_ .f32 0x7F800000#32
  let main_v45 : FVec F S64x1024 .f32 := broadcastInDim S64x1024 ![] bcast_S_S64x1024 main_cst_16
  let main_v46 : IVec S64x1024 1 := cmpf .olt main_v44 main_v45
  let main_c_17 : IVec S_ 1 := constantI S_ 1 1#1
  let main_v47 : IVec S_ 1 := (fun x v => Host.reduce IntOp.andi x v reducesTo_S64x1024_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg13 main_v48 main_v49 main_v50

def fn_part1 {F : FTy → Type} [FloatOps F] (main_arg4 : FVec F S5000x1024 .f32) (main_arg5 : FVec F S512x512 .f32) (main_arg6 : FVec F S512 .f32) (main_arg7 : FVec F S512x512 .f32) (main_arg8 : FVec F S512 .f32) (main_arg9 : FVec F S64x1024 .f32) (main_arg10 : FVec F S64 .f32) (main_arg11 : IVec S400000 32) (main_arg13 : IVec S80000 32) (main_v13 : IVec S_ 1) (main_v16 : IVec S25000x1024 1) : IVec S_ 1 :=
  let main_c_5 : IVec S_ 1 := constantI S_ 1 1#1
  let main_v17 : IVec S_ 1 := (fun x v => Host.reduce IntOp.andi x v reducesTo_S25000x1024_S_d0_1 h_S_) main_v16 main_c_5
  let main_v18 : IVec S_ 1 := andi main_v13 main_v17
  let main_v19 : FVec F S5000x1024 .f32 := Host.absf main_arg4
  let main_cst_6 : FVec F S_ .f32 := constant S_ .f32 0x7F800000#32
  let main_v20 : FVec F S5000x1024 .f32 := broadcastInDim S5000x1024 ![] bcast_S_S5000x1024 main_cst_6
  let main_v21 : IVec S5000x1024 1 := cmpf .olt main_v19 main_v20
  let main_c_7 : IVec S_ 1 := constantI S_ 1 1#1
  let main_v22 : IVec S_ 1 := (fun x v => Host.reduce IntOp.andi x v reducesTo_S5000x1024_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg13 main_v33

def fn {F : FTy → Type} [FloatOps F] (main_arg0 : FVec F S100000x512 .f32) (main_arg1 : FVec F S100000x512 .f32) (main_arg2 : FVec F S25000x512 .f32) (main_arg3 : FVec F S25000x1024 .f32) (main_arg4 : FVec F S5000x1024 .f32) (main_arg5 : FVec F S512x512 .f32) (main_arg6 : FVec F S512 .f32) (main_arg7 : FVec F S512x512 .f32) (main_arg8 : FVec F S512 .f32) (main_arg9 : FVec F S64x1024 .f32) (main_arg10 : FVec F S64 .f32) (main_arg11 : IVec S400000 32) (main_arg12 : IVec S400000 32) (main_arg13 : IVec S80000 32) (main_arg14 : IVec S80000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S25000x512 .f32 := Host.absf main_arg2
  let main_cst_2 : FVec F S_ .f32 := constant S_ .f32 0x7F800000#32
  let main_v10 : FVec F S25000x512 .f32 := broadcastInDim S25000x512 ![] bcast_S_S25000x512 main_cst_2
  let main_v11 : IVec S25000x512 1 := cmpf .olt main_v9 main_v10
  let main_c_3 : IVec S_ 1 := constantI S_ 1 1#1
  let main_v12 : IVec S_ 1 := (fun x v => Host.reduce IntOp.andi x v reducesTo_S25000x512_S_d0_1 h_S_) main_v11 main_c_3
  let main_v13 : IVec S_ 1 := andi main_v8 main_v12
  let main_v14 : FVec F S25000x1024 .f32 := Host.absf main_arg3
  let main_cst_4 : FVec F S_ .f32 := constant S_ .f32 0x7F800000#32
  let main_v15 : FVec F S25000x1024 .f32 := broadcastInDim S25000x1024 ![] bcast_S_S25000x1024 main_cst_4
  let main_v16 : IVec S25000x1024 1 := cmpf .olt main_v14 main_v15
  fn_part1 (F := F) main_arg4 main_arg5 main_arg6 main_arg7 main_arg8 main_arg9 main_arg10 main_arg11 main_arg13 main_v13 main_v16
-- ==== Kernel.lean ====
abbrev S100000x512 : Shape := ⟨2, ![100000, 512]⟩
abbrev S25000x512 : Shape := ⟨2, ![25000, 512]⟩
abbrev S25000x1024 : Shape := ⟨2, ![25000, 1024]⟩
abbrev S5000x1024 : Shape := ⟨2, ![5000, 1024]⟩
abbrev S512x512 : Shape := ⟨2, ![512, 512]⟩
abbrev S512 : Shape := ⟨1, ![512]⟩
abbrev S64x1024 : Shape := ⟨2, ![64, 1024]⟩
abbrev S64 : Shape := ⟨1, ![64]⟩
abbrev S400000 : Shape := ⟨1, ![400000]⟩
abbrev S80000 : Shape := ⟨1, ![80000]⟩
abbrev S1024x64 : Shape := ⟨2, ![1024, 64]⟩
abbrev S1x512 : Shape := ⟨2, ![1, 512]⟩
abbrev S1x64 : Shape := ⟨2, ![1, 64]⟩
abbrev S2000x512 : Shape := ⟨2, ![2000, 512]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S400000x512 : Shape := ⟨2, ![400000, 512]⟩
abbrev S25000 : Shape := ⟨1, ![25000]⟩
abbrev S25000x1 : Shape := ⟨2, ![25000, 1]⟩
abbrev S1000x512 : Shape := ⟨2, ![1000, 512]⟩
abbrev S1000x1 : Shape := ⟨2, ![1000, 1]⟩
abbrev S1000x1024 : Shape := ⟨2, ![1000, 1024]⟩
abbrev S80000x1 : Shape := ⟨2, ![80000, 1]⟩
abbrev S80000x1024 : Shape := ⟨2, ![80000, 1024]⟩
abbrev S5000 : Shape := ⟨1, ![5000]⟩
abbrev S5000x1 : Shape := ⟨2, ![5000, 1]⟩
abbrev S5000x64 : Shape := ⟨2, ![5000, 64]⟩
abbrev S1000x64 : Shape := ⟨2, ![1000, 64]⟩

abbrev nBuf : Space → Nat
  | .hbm => 104
  | .vmem => 30
  | .smem => 0
  | _ => 0

abbrev bufTy : (tb : Table) → Fin (tcTables nBuf tb) → BufTy
  | .hbm, ⟨0, _⟩ => ⟨S100000x512, .f32⟩
  | .hbm, ⟨1, _⟩ => ⟨S100000x512, .f32⟩
  | .hbm, ⟨2, _⟩ => ⟨S25000x512, .f32⟩
  | .hbm, ⟨3, _⟩ => ⟨S25000x1024, .f32⟩
  | .hbm, ⟨4, _⟩ => ⟨S5000x1024, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S64x1024, .f32⟩
  | .hbm, ⟨10, _⟩ => ⟨S64, .f32⟩
  | .hbm, ⟨11, _⟩ => ⟨S400000, .i32⟩
  | .hbm, ⟨12, _⟩ => ⟨S400000, .i32⟩
  | .hbm, ⟨13, _⟩ => ⟨S80000, .i32⟩
  | .hbm, ⟨14, _⟩ => ⟨S80000, .i32⟩
  | .hbm, ⟨15, _⟩ => ⟨S512x512, .f32⟩
  | .hbm, ⟨16, _⟩ => ⟨S512x512, .f32⟩
  | .hbm, ⟨17, _⟩ => ⟨S1024x64, .f32⟩
  | .hbm, ⟨18, _⟩ => ⟨S1x512, .f32⟩
  | .hbm, ⟨19, _⟩ => ⟨S1x512, .f32⟩
  | .hbm, ⟨20, _⟩ => ⟨S1x64, .f32⟩
  | .hbm, ⟨21, _⟩ => ⟨S100000x512, .f32⟩
  | .hbm, ⟨22, _⟩ => ⟨S_, .i32⟩
  | .hbm, ⟨23, _⟩ => ⟨S400000, .i32⟩
  | .hbm, ⟨24, _⟩ => ⟨S400000, .i1⟩
  | .hbm, ⟨25, _⟩ => ⟨S_, .i32⟩
  | .hbm, ⟨26, _⟩ => ⟨S400000, .i32⟩
  | .hbm, ⟨27, _⟩ => ⟨S400000, .i32⟩
  | .hbm, ⟨28, _⟩ => ⟨S400000, .i32⟩
  | .hbm, ⟨29, _⟩ => ⟨S400000x1, .i32⟩
  | .hbm, ⟨30, _⟩ => ⟨S1, .i32⟩
  | .hbm, ⟨31, _⟩ => ⟨S_, .i32⟩
  | .hbm, ⟨32, _⟩ => ⟨S400000x1, .i32⟩
  | .hbm, ⟨33, _⟩ => ⟨S400000x1, .i1⟩
  | .hbm, ⟨34, _⟩ => ⟨S1x1, .i32⟩
  | .hbm, ⟨35, _⟩ => ⟨S400000x1, .i32⟩
  | .hbm, ⟨36, _⟩ => ⟨S400000x1, .i1⟩
  | .hbm, ⟨37, _⟩ => ⟨S400000x1, .i1⟩
  | .hbm, ⟨38, _⟩ => ⟨S_, .i1⟩
  | .hbm, ⟨39, _⟩ => ⟨S400000, .i1⟩
  | .hbm, ⟨40, _⟩ => ⟨S400000x512, .f32⟩
  | .hbm, ⟨41, _⟩ => ⟨S400000x512, .i1⟩
  | .hbm, ⟨42, _⟩ => ⟨S_, .f32⟩
  | .hbm, ⟨43, _⟩ => ⟨S400000x512, .f32⟩
  | .hbm, ⟨44, _⟩ => ⟨S400000x512, .f32⟩
  | .hbm, ⟨45, _⟩ => ⟨S_, .f32⟩
  | .hbm, ⟨46, _⟩ => ⟨S25000x512, .f32⟩
  | .hbm, ⟨47, _⟩ => ⟨S400000x1, .i32⟩
  | .hbm, ⟨48, _⟩ => ⟨S25000x512, .f32⟩
  | .hbm, ⟨49, _⟩ => ⟨S_, .f32⟩
  | .hbm, ⟨50, _⟩ => ⟨S400000, .f32⟩
  | .hbm, ⟨51, _⟩ => ⟨S_, .f32⟩
  | .hbm, ⟨52, _⟩ => ⟨S25000, .f32⟩
  | .hbm, ⟨53, _⟩ => ⟨S400000x1, .i32⟩
  | .hbm, ⟨54, _⟩ => ⟨S25000, .f32⟩
  | .hbm, ⟨55, _⟩ => ⟨S_, .f32⟩
  | .hbm, ⟨56, _⟩ => ⟨S25000, .f32⟩
  | .hbm, ⟨57, _⟩ => ⟨S25000, .f32⟩
  | .hbm, ⟨58, _⟩ => ⟨S_, .f32⟩
  | .hbm, ⟨59, _⟩ => ⟨S25000, .f32⟩
  | .hbm, ⟨60, _⟩ => ⟨S25000, .f32⟩
  | .hbm, ⟨61, _⟩ => ⟨S25000x1, .f32⟩
  | .hbm, ⟨62, _⟩ => ⟨S25000x1024, .f32⟩
  | .hbm, ⟨63, _⟩ => ⟨S_, .i32⟩
  | .hbm, ⟨64, _⟩ => ⟨S80000, .i32⟩
  | .hbm, ⟨65, _⟩ => ⟨S80000, .i1⟩
  | .hbm, ⟨66, _⟩ => ⟨S_, .i32⟩
  | .hbm, ⟨67, _⟩ => ⟨S80000, .i32⟩
  | .hbm, ⟨68, _⟩ => ⟨S80000, .i32⟩
  | .hbm, ⟨69, _⟩ => ⟨S80000, .i32⟩
  | .hbm, ⟨70, _⟩ => ⟨S80000x1, .i32⟩
  | .hbm, ⟨71, _⟩ => ⟨S1, .i32⟩
  | .hbm, ⟨72, _⟩ => ⟨S_, .i32⟩
  | .hbm, ⟨73, _⟩ => ⟨S80000x1, .i32⟩
  | .hbm, ⟨74, _⟩ => ⟨S80000x1, .i1⟩
  | .hbm, ⟨75, _⟩ => ⟨S1x1, .i32⟩
  | .hbm, ⟨76, _⟩ => ⟨S80000x1, .i32⟩
  | .hbm, ⟨77, _⟩ => ⟨S80000x1, .i1⟩
  | .hbm, ⟨78, _⟩ => ⟨S80000x1, .i1⟩
  | .hbm, ⟨79, _⟩ => ⟨S_, .i1⟩
  | .hbm, ⟨80, _⟩ => ⟨S80000, .i1⟩
  | .hbm, ⟨81, _⟩ => ⟨S80000x1024, .f32⟩
  | .hbm, ⟨82, _⟩ => ⟨S80000x1024, .i1⟩
  | .hbm, ⟨83, _⟩ => ⟨S_, .f32⟩
  | .hbm, ⟨84, _⟩ => ⟨S80000x1024, .f32⟩
  | .hbm, ⟨85, _⟩ => ⟨S80000x1024, .f32⟩
  | .hbm, ⟨86, _⟩ => ⟨S_, .f32⟩
  | .hbm, ⟨87, _⟩ => ⟨S5000x1024, .f32⟩
  | .hbm, ⟨88, _⟩ => ⟨S80000x1, .i32⟩
  | .hbm, ⟨89, _⟩ => ⟨S5000x1024, .f32⟩
  | .hbm, ⟨90, _⟩ => ⟨S_, .f32⟩
  | .hbm, ⟨91, _⟩ => ⟨S80000, .f32⟩
  | .hbm, ⟨92, _⟩ => ⟨S_, .f32⟩
  | .hbm, ⟨93, _⟩ => ⟨S5000, .f32⟩
  | .hbm, ⟨94, _⟩ => ⟨S80000x1, .i32⟩
  | .hbm, ⟨95, _⟩ => ⟨S5000, .f32⟩
  | .hbm, ⟨96, _⟩ => ⟨S_, .f32⟩
  | .hbm, ⟨97, _⟩ => ⟨S5000, .f32⟩
  | .hbm, ⟨98, _⟩ => ⟨S5000, .f32⟩
  | .hbm, ⟨99, _⟩ => ⟨S_, .f32⟩
  | .hbm, ⟨100, _⟩ => ⟨S5000, .f32⟩
  | .hbm, ⟨101, _⟩ => ⟨S5000, .f32⟩
  | .hbm, ⟨102, _⟩ => ⟨S5000x1, .f32⟩
  | .hbm, ⟨103, _⟩ => ⟨S5000x64, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S1000x512, .f32⟩
  | .local _ .vmem, ⟨9, _⟩ => ⟨S1000x512, .f32⟩
  | .local _ .vmem, ⟨10, _⟩ => ⟨S1000x1, .f32⟩
  | .local _ .vmem, ⟨11, _⟩ => ⟨S1000x1, .f32⟩
  | .local _ .vmem, ⟨12, _⟩ => ⟨S1000x512, .f32⟩
  | .local _ .vmem, ⟨13, _⟩ => ⟨S1000x512, .f32⟩
  | .local _ .vmem, ⟨14, _⟩ => ⟨S512x512, .f32⟩
  | .local _ .vmem, ⟨15, _⟩ => ⟨S1x512, .f32⟩
  | .local _ .vmem, ⟨16, _⟩ => ⟨S1000x1024, .f32⟩
  | .local _ .vmem, ⟨17, _⟩ => ⟨S1000x1024, .f32⟩
  | .local _ .vmem, ⟨18, _⟩ => ⟨S1000x1024, .f32⟩
  | .local _ .vmem, ⟨19, _⟩ => ⟨S1000x1024, .f32⟩
  | .local _ .vmem, ⟨20, _⟩ => ⟨S1000x1024, .f32⟩
  | .local _ .vmem, ⟨21, _⟩ => ⟨S1000x1024, .f32⟩
  | .local _ .vmem, ⟨22, _⟩ => ⟨S1000x1, .f32⟩
  | .local _ .vmem, ⟨23, _⟩ => ⟨S1000x1, .f32⟩
  | .local _ .vmem, ⟨24, _⟩ => ⟨S1000x1024, .f32⟩
  | .local _ .vmem, ⟨25, _⟩ => ⟨S1000x1024, .f32⟩
  | .local _ .vmem, ⟨26, _⟩ => ⟨S1024x64, .f32⟩
  | .local _ .vmem, ⟨27, _⟩ => ⟨S1x64, .f32⟩
  | .local _ .vmem, ⟨28, _⟩ => ⟨S1000x64, .f32⟩
  | .local _ .vmem, ⟨29, _⟩ => ⟨S1000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v7 : Ref sig .tc := ⟨.hbm, 44, rfl⟩
abbrev main_cst : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst_0 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_2 : Ref sig .tc := ⟨.hbm, 55, rfl⟩
abbrev main_v15 : Ref sig .tc := ⟨.hbm, 56, rfl⟩
abbrev main_v16 : Ref sig .tc := ⟨.hbm, 57, rfl⟩
abbrev main_cst_3 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v21 : Ref sig .tc := ⟨.hbm, 85, rfl⟩
abbrev main_cst_4 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_cst_5 : Ref sig .tc := ⟨.hbm, 90, rfl⟩
abbrev main_v25 : Ref sig .tc := ⟨.hbm, 91, rfl⟩
abbrev main_cst_6 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_cst_7 : Ref sig .tc := ⟨.hbm, 96, rfl⟩
abbrev main_v29 : Ref sig .tc := ⟨.hbm, 97, rfl⟩
abbrev main_v30 : Ref sig .tc := ⟨.hbm, 98, rfl⟩
abbrev main_cst_8 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1000x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S512x512_S512x512_1_0 : S512x512.Transposes [1, 0] S512x512
  transposes_S64x1024_S1024x64_1_0 : S64x1024.Transposes [1, 0] S1024x64
  shapeCasts_S512_S1x512 : S512.ShapeCasts S1x512
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x512_0 : S400000.BroadcastsInDim S400000x512 (![0] : Fin 1 → Fin S400000x512.rank)
  bcast_S_S400000x512 : S_.BroadcastsInDim S400000x512 (![] : Fin 0 → Fin S400000x512.rank)
  bcast_S_S25000x512 : S_.BroadcastsInDim S25000x512 (![] : Fin 0 → Fin S25000x512.rank)
  bcast_S_S25000 : S_.BroadcastsInDim S25000 (![] : Fin 0 → Fin S25000.rank)
  shapeCasts_S25000_S25000x1 : S25000.ShapeCasts S25000x1
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  broadcasts_S1x512_S1000x512 : S1x512.Broadcasts S1000x512
  inb_S1000x1024_S1000x512_0_0 : ∀ a, (![0, 0] : Fin 2 → Nat) a + S1000x512.size a ≤ S1000x1024.size a
  inb_S1000x1024_S1000x512_0_512 : ∀ a, (![0, 512] : Fin 2 → Nat) a + S1000x512.size a ≤ S1000x1024.size a
  bcast_S_S80000 : S_.BroadcastsInDim S80000 (![] : Fin 0 → Fin S80000.rank)
  bcast_S80000_S80000x1_0 : S80000.BroadcastsInDim S80000x1 (![0] : Fin 1 → Fin S80000x1.rank)
  bcast_S_S80000x1 : S_.BroadcastsInDim S80000x1 (![] : Fin 0 → Fin S80000x1.rank)
  bcast_S1x1_S80000x1_0_1 : S1x1.BroadcastsInDim S80000x1 (![0, 1] : Fin 2 → Fin S80000x1.rank)
  reducesTo_S80000x1_S80000_d1 : S80000x1.ReducesTo [1] S80000
  bcast_S80000_S80000x1024_0 : S80000.BroadcastsInDim S80000x1024 (![0] : Fin 1 → Fin S80000x1024.rank)
  bcast_S_S80000x1024 : S_.BroadcastsInDim S80000x1024 (![] : Fin 0 → Fin S80000x1024.rank)
  bcast_S_S5000x1024 : S_.BroadcastsInDim S5000x1024 (![] : Fin 0 → Fin S5000x1024.rank)
  bcast_S_S5000 : S_.BroadcastsInDim S5000 (![] : Fin 0 → Fin S5000.rank)
  shapeCasts_S5000_S5000x1 : S5000.ShapeCasts S5000x1
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  broadcasts_S1000x1_S1000x1024 : S1000x1.Broadcasts S1000x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  dot_S2000x512_S512x512_S2000x512_1_0_0_1_n_n_wf : DotDims.WF S2000x512 S512x512 S2000x512 [1] [0] [0] [1] [] []
  gather_S100000x512_S400000x1_S400000x512_1_0_n_n_0_1_1512_wf : GatherDims.WF S100000x512 S400000x1 S400000x512 [1] [0] [] [0] [] 1 ![1, 512]
  scatter_S25000x512_S400000x1_S400000x512_1_0_0_1_wf : ScatterDims.WF S25000x512 S400000x1 S400000x512 [1] [0] [0] 1
  scatter_S25000_S400000x1_S400000_n_0_0_1_wf : ScatterDims.WF S25000 S400000x1 S400000 [] [0] [0] 1
  dot_S1000x512_S512x512_S1000x512_1_0_0_1_n_n_wf : DotDims.WF S1000x512 S512x512 S1000x512 [1] [0] [0] [1] [] []
  gather_S25000x1024_S80000x1_S80000x1024_1_0_n_n_0_1_11024_wf : GatherDims.WF S25000x1024 S80000x1 S80000x1024 [1] [0] [] [0] [] 1 ![1, 1024]
  scatter_S5000x1024_S80000x1_S80000x1024_1_0_0_1_wf : ScatterDims.WF S5000x1024 S80000x1 S80000x1024 [1] [0] [0] 1
  scatter_S5000_S80000x1_S80000_n_0_0_1_wf : ScatterDims.WF S5000 S80000x1 S80000 [] [0] [0] 1
  dot_S1000x1024_S1024x64_S1000x64_1_0_0_1_n_n_wf : DotDims.WF S1000x1024 S1024x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S100000x512.size a
  hwx0_3 : ∀ i : grid0.Coords, EltTy.bits .f32 = 32 ∨ (Rect.block (s := S100000x512) S2000x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S100000x512.size a
  hwx0_4 : ∀ i : grid0.Coords, EltTy.bits .f32 = 32 ∨ (Rect.block (s := S100000x512) S2000x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S25000x512.size a
  hwx1_0 : ∀ i : grid1.Coords, EltTy.bits .f32 = 32 ∨ (Rect.block (s := S25000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S25000x1.size a
  hwx1_1 : ∀ i : grid1.Coords, EltTy.bits .f32 = 32 ∨ (Rect.block (s := S25000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S25000x512.size a
  hwx1_2 : ∀ i : grid1.Coords, EltTy.bits .f32 = 32 ∨ (Rect.block (s := S25000x512) S1000x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x1024.size a ≤ S25000x1024.size a
  hwx1_5 : ∀ i : grid1.Coords, EltTy.bits .f32 = 32 ∨ (Rect.block (s := S25000x1024) S1000x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x1024.size a ≤ S25000x1024.size a
  hwx1_6 : ∀ i : grid1.Coords, EltTy.bits .f32 = 32 ∨ (Rect.block (s := S25000x1024) S1000x1024.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x1024.size a ≤ S5000x1024.size a
  hwx2_0 : ∀ i : grid2.Coords, EltTy.bits .f32 = 32 ∨ (Rect.block (s := S5000x1024) S1000x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S5000x1.size a
  hwx2_1 : ∀ i : grid2.Coords, EltTy.bits .f32 = 32 ∨ (Rect.block (s := S5000x1) S1000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1024.size a ≤ S5000x1024.size a
  hwx2_2 : ∀ i : grid2.Coords, EltTy.bits .f32 = 32 ∨ (Rect.block (s := S5000x1024) S1000x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S1024x64.size a
  hwx2_3 : ∀ i : grid2.Coords, EltTy.bits .f32 = 32 ∨ (Rect.block (s := S1024x64) S1024x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x64.size a ≤ S5000x64.size a
  hwx2_5 : ∀ i : grid2.Coords, EltTy.bits .f32 = 32 ∨ (Rect.block (s := S5000x64) S1000x64.size (cc2_transform_5 i) (hinb2_5 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S100000x512_S400000x1_S400000x512_1_0_n_n_0_1_1512 : GatherDims S100000x512 S400000x1 S400000x512 where
  offsetDims := [1]
  collapsedSliceDims := [0]
  operandBatchingDims := []
  startIndicesBatchingDims := []
  startIndexMap := [0]
  indexVectorDim := 1
  sliceSizes := ![1, 512]
  wf := gather_S100000x512_S400000x1_S400000x512_1_0_n_n_0_1_1512_wf
def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S25000x1024_S80000x1_S80000x1024_1_0_n_n_0_1_11024 : GatherDims S25000x1024 S80000x1 S80000x1024 where
  offsetDims := [1]
  collapsedSliceDims := [0]
  operandBatchingDims := []
  startIndicesBatchingDims := []
  startIndexMap := [0]
  indexVectorDim := 1
  sliceSizes := ![1, 1024]
  wf := gather_S25000x1024_S80000x1_S80000x1024_1_0_n_n_0_1_11024_wf
def scatter_S5000x1024_S80000x1_S80000x1024_1_0_0_1 : ScatterDims S5000x1024 S80000x1 S80000x1024 where
  updateWindowDims := [1]
  insertedWindowDims := [0]
  scatterDimsToOperandDims := [0]
  indexVectorDim := 1
  wf := scatter_S5000x1024_S80000x1_S80000x1024_1_0_0_1_wf
def scatter_S5000_S80000x1_S80000_n_0_0_1 : ScatterDims S5000 S80000x1 S80000 where
  updateWindowDims := []
  insertedWindowDims := [0]
  scatterDimsToOperandDims := [0]
  indexVectorDim := 1
  wf := scatter_S5000_S80000x1_S80000_n_0_0_1_wf
def dot_S1000x1024_S1024x64_S1000x64_1_0_0_1_n_n : DotDims S1000x1024 S1024x64 S1000x64 where
  lhsContracting := [1]
  rhsContracting := [0]
  lhsNonContracting := [0]
  rhsNonContracting := [1]
  lhsBatch := []
  rhsBatch := []
  wf := dot_S1000x1024_S1024x64_S1000x64_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2000x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S1000x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1000x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v24) S1000x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1000x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1024x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S1000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x512 : Shape := ⟨2, ![100000, 512]⟩
abbrev S25000x512 : Shape := ⟨2, ![25000, 512]⟩
abbrev S25000x1024 : Shape := ⟨2, ![25000, 1024]⟩
abbrev S5000x1024 : Shape := ⟨2, ![5000, 1024]⟩
abbrev S512x512 : Shape := ⟨2, ![512, 512]⟩
abbrev S512 : Shape := ⟨1, ![512]⟩
abbrev S64x1024 : Shape := ⟨2, ![64, 1024]⟩
abbrev S64 : Shape := ⟨1, ![64]⟩
abbrev S400000 : Shape := ⟨1, ![400000]⟩
abbrev S80000 : Shape := ⟨1, ![80000]⟩
abbrev S1x512 : Shape := ⟨2, ![1, 512]⟩
abbrev S_ : Shape := ⟨0, ![]⟩
abbrev S400000x1 : Shape := ⟨2, ![400000, 1]⟩
abbrev S400000x512 : Shape := ⟨2, ![400000, 512]⟩
abbrev S25000 : Shape := ⟨1, ![25000]⟩
abbrev S25000x1 : Shape := ⟨2, ![25000, 1]⟩
abbrev S80000x1 : Shape := ⟨2, ![80000, 1]⟩
abbrev S80000x1024 : Shape := ⟨2, ![80000, 1024]⟩
abbrev S5000 : Shape := ⟨1, ![5000]⟩
abbrev S5000x1 : Shape := ⟨2, ![5000, 1]⟩
abbrev S1024x64 : Shape := ⟨2, ![1024, 64]⟩
abbrev S5000x64 : Shape := ⟨2, ![5000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000x512, .f32⟩
  | .hbm, ⟨2, _⟩ => ⟨S25000x512, .f32⟩
  | .hbm, ⟨3, _⟩ => ⟨S25000x1024, .f32⟩
  | .hbm, ⟨4, _⟩ => ⟨S5000x1024, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S64x1024, .f32⟩
  | .hbm, ⟨10, _⟩ => ⟨S64, .f32⟩
  | .hbm, ⟨11, _⟩ => ⟨S400000, .i32⟩
  | .hbm, ⟨12, _⟩ => ⟨S400000, .i32⟩
  | .hbm, ⟨13, _⟩ => ⟨S80000, .i32⟩
  | .hbm, ⟨14, _⟩ => ⟨S80000, .i32⟩
  | .hbm, ⟨15, _⟩ => ⟨S512x512, .f32⟩
  | .hbm, ⟨16, _⟩ => ⟨S100000x512, .f32⟩
  | .hbm, ⟨17, _⟩ => ⟨S1x512, .f32⟩
  | .hbm, ⟨18, _⟩ => ⟨S100000x512, .f32⟩
  | .hbm, ⟨19, _⟩ => ⟨S100000x512, .f32⟩
  | .hbm, ⟨20, _⟩ => ⟨S_, .f32⟩
  | .hbm, ⟨21, _⟩ => ⟨S100000x512, .f32⟩
  | .hbm, ⟨22, _⟩ => ⟨S100000x512, .f32⟩
  | .hbm, ⟨23, _⟩ => ⟨S100000x512, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x512, .f32⟩
  | .hbm, ⟨33, _⟩ => ⟨S_, .f32⟩
  | .hbm, ⟨34, _⟩ => ⟨S25000x512, .f32⟩
  | .hbm, ⟨35, _⟩ => ⟨S400000x1, .i32⟩
  | .hbm, ⟨36, _⟩ => ⟨S25000x512, .f32⟩
  | .hbm, ⟨37, _⟩ => ⟨S_, .f32⟩
  | .hbm, ⟨38, _⟩ => ⟨S400000, .f32⟩
  | .hbm, ⟨39, _⟩ => ⟨S_, .f32⟩
  | .hbm, ⟨40, _⟩ => ⟨S25000, .f32⟩
  | .hbm, ⟨41, _⟩ => ⟨S400000x1, .i32⟩
  | .hbm, ⟨42, _⟩ => ⟨S25000, .f32⟩
  | .hbm, ⟨43, _⟩ => ⟨S_, .f32⟩
  | .hbm, ⟨44, _⟩ => ⟨S25000, .f32⟩
  | .hbm, ⟨45, _⟩ => ⟨S25000, .f32⟩
  | .hbm, ⟨46, _⟩ => ⟨S25000x1, .f32⟩
  | .hbm, ⟨47, _⟩ => ⟨S25000x512, .f32⟩
  | .hbm, ⟨48, _⟩ => ⟨S25000x512, .f32⟩
  | .hbm, ⟨49, _⟩ => ⟨S25000x512, .f32⟩
  | .hbm, ⟨50, _⟩ => ⟨S512x512, .f32⟩
  | .hbm, ⟨51, _⟩ => ⟨S25000x512, .f32⟩
  | .hbm, ⟨52, _⟩ => ⟨S1x512, .f32⟩
  | .hbm, ⟨53, _⟩ => ⟨S25000x512, .f32⟩
  | .hbm, ⟨54, _⟩ => ⟨S25000x512, .f32⟩
  | .hbm, ⟨55, _⟩ => ⟨S_, .f32⟩
  | .hbm, ⟨56, _⟩ => ⟨S25000x512, .f32⟩
  | .hbm, ⟨57, _⟩ => ⟨S25000x512, .f32⟩
  | .hbm, ⟨58, _⟩ => ⟨S25000x1024, .f32⟩
  | .hbm, ⟨59, _⟩ => ⟨S25000x1024, .f32⟩
  | .hbm, ⟨60, _⟩ => ⟨S_, .i32⟩
  | .hbm, ⟨61, _⟩ => ⟨S80000, .i32⟩
  | .hbm, ⟨62, _⟩ => ⟨S80000, .i1⟩
  | .hbm, ⟨63, _⟩ => ⟨S_, .i32⟩
  | .hbm, ⟨64, _⟩ => ⟨S80000, .i32⟩
  | .hbm, ⟨65, _⟩ => ⟨S80000, .i32⟩
  | .hbm, ⟨66, _⟩ => ⟨S80000, .i32⟩
  | .hbm, ⟨67, _⟩ => ⟨S80000x1, .i32⟩
  | .hbm, ⟨68, _⟩ => ⟨S80000x1024, .f32⟩
  | .hbm, ⟨69, _⟩ => ⟨S_, .f32⟩
  | .hbm, ⟨70, _⟩ => ⟨S5000x1024, .f32⟩
  | .hbm, ⟨71, _⟩ => ⟨S80000x1, .i32⟩
  | .hbm, ⟨72, _⟩ => ⟨S5000x1024, .f32⟩
  | .hbm, ⟨73, _⟩ => ⟨S_, .f32⟩
  | .hbm, ⟨74, _⟩ => ⟨S80000, .f32⟩
  | .hbm, ⟨75, _⟩ => ⟨S_, .f32⟩
  | .hbm, ⟨76, _⟩ => ⟨S5000, .f32⟩
  | .hbm, ⟨77, _⟩ => ⟨S80000x1, .i32⟩
  | .hbm, ⟨78, _⟩ => ⟨S5000, .f32⟩
  | .hbm, ⟨79, _⟩ => ⟨S_, .f32⟩
  | .hbm, ⟨80, _⟩ => ⟨S5000, .f32⟩
  | .hbm, ⟨81, _⟩ => ⟨S5000, .f32⟩
  | .hbm, ⟨82, _⟩ => ⟨S5000x1, .f32⟩
  | .hbm, ⟨83, _⟩ => ⟨S5000x1024, .f32⟩
  | .hbm, ⟨84, _⟩ => ⟨S5000x1024, .f32⟩
  | .hbm, ⟨85, _⟩ => ⟨S5000x1024, .f32⟩
  | .hbm, ⟨86, _⟩ => ⟨S1024x64, .f32⟩
  | .hbm, ⟨87, _⟩ => ⟨S5000x64, .f32⟩
  | .hbm, ⟨88, _⟩ => ⟨S1x64, .f32⟩
  | .hbm, ⟨89, _⟩ => ⟨S5000x64, .f32⟩
  | .hbm, ⟨90, _⟩ => ⟨S5000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_c : Ref sig .tc := ⟨.hbm, 24, rfl⟩
abbrev main_v7 : Ref sig .tc := ⟨.hbm, 25, rfl⟩
abbrev main_v8 : Ref sig .tc := ⟨.hbm, 26, rfl⟩
abbrev main_c_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_cst : Ref sig .tc := ⟨.hbm, 55, rfl⟩
abbrev main_call1_v0 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_4 : Ref sig .tc := ⟨.hbm, 60, rfl⟩
abbrev main_v35 : Ref sig .tc := ⟨.hbm, 61, rfl⟩
abbrev main_v36 : Ref sig .tc := ⟨.hbm, 62, rfl⟩
abbrev main_c_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S25000x512 : S_.BroadcastsInDim S25000x512 (![] : Fin 0 → Fin S25000x512.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x512_0_1 : S25000x1.BroadcastsInDim S25000x512 (![0, 1] : Fin 2 → Fin S25000x512.rank)
  bcast_S1x512_S25000x512_0_1 : S1x512.BroadcastsInDim S25000x512 (![0, 1] : Fin 2 → Fin S25000x512.rank)
  concatenates_S25000x512_S25000x512_S25000x1024_d1 : Shape.Concatenates [S25000x512, S25000x512] S25000x1024 1
  bcast_S_S80000 : S_.BroadcastsInDim S80000 (![] : Fin 0 → Fin S80000.rank)
  bcast_S80000_S80000x1_0 : S80000.BroadcastsInDim S80000x1 (![0] : Fin 1 → Fin S80000x1.rank)
  bcast_S_S5000x1024 : S_.BroadcastsInDim S5000x1024 (![] : Fin 0 → Fin S5000x1024.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x1024_0_1 : S5000x1.BroadcastsInDim S5000x1024 (![0, 1] : Fin 2 → Fin S5000x1024.rank)
  transposes_S64x1024_S1024x64_1_0 : S64x1024.Transposes [1, 0] S1024x64
  bcast_S64_S1x64_1 : S64.BroadcastsInDim S1x64 (![1] : Fin 1 → Fin S1x64.rank)
  bcast_S1x64_S5000x64_0_1 : S1x64.BroadcastsInDim S5000x64 (![0, 1] : Fin 2 → Fin S5000x64.rank)
  dot_S100000x512_S512x512_S100000x512_1_0_0_1_n_n_wf : DotDims.WF S100000x512 S512x512 S100000x512 [1] [0] [0] [1] [] []
  gather_S100000x512_S400000x1_S400000x512_1_0_n_n_0_1_1512_wf : GatherDims.WF S100000x512 S400000x1 S400000x512 [1] [0] [] [0] [] 1 ![1, 512]
  scatter_S25000x512_S400000x1_S400000x512_1_0_0_1_wf : ScatterDims.WF S25000x512 S400000x1 S400000x512 [1] [0] [0] 1
  scatter_S25000_S400000x1_S400000_n_0_0_1_wf : ScatterDims.WF S25000 S400000x1 S400000 [] [0] [0] 1
  dot_S25000x512_S512x512_S25000x512_1_0_0_1_n_n_wf : DotDims.WF S25000x512 S512x512 S25000x512 [1] [0] [0] [1] [] []
  gather_S25000x1024_S80000x1_S80000x1024_1_0_n_n_0_1_11024_wf : GatherDims.WF S25000x1024 S80000x1 S80000x1024 [1] [0] [] [0] [] 1 ![1, 1024]
  scatter_S5000x1024_S80000x1_S80000x1024_1_0_0_1_wf : ScatterDims.WF S5000x1024 S80000x1 S80000x1024 [1] [0] [0] 1
  scatter_S5000_S80000x1_S80000_n_0_0_1_wf : ScatterDims.WF S5000 S80000x1 S80000 [] [0] [0] 1
  dot_S5000x1024_S1024x64_S5000x64_1_0_0_1_n_n_wf : DotDims.WF S5000x1024 S1024x64 S5000x64 [1] [0] [0] [1] [] []

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def gather_S100000x512_S400000x1_S400000x512_1_0_n_n_0_1_1512 : GatherDims S100000x512 S400000x1 S400000x512 where
  offsetDims := [1]
  collapsedSliceDims := [0]
  operandBatchingDims := []
  startIndicesBatchingDims := []
  startIndexMap := [0]
  indexVectorDim := 1
  sliceSizes := ![1, 512]
  wf := gather_S100000x512_S400000x1_S400000x512_1_0_n_n_0_1_1512_wf
def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def dot_S25000x512_S512x512_S25000x512_1_0_0_1_n_n : DotDims S25000x512 S512x512 S25000x512 where
  lhsContracting := [1]
  rhsContracting := [0]
  lhsNonContracting := [0]
  rhsNonContracting := [1]
  lhsBatch := []
  rhsBatch := []
  wf := dot_S25000x512_S512x512_S25000x512_1_0_0_1_n_n_wf
def gather_S25000x1024_S80000x1_S80000x1024_1_0_n_n_0_1_11024 : GatherDims S25000x1024 S80000x1 S80000x1024 where
  offsetDims := [1]
  collapsedSliceDims := [0]
  operandBatchingDims := []
  startIndicesBatchingDims := []
  startIndexMap := [0]
  indexVectorDim := 1
  sliceSizes := ![1, 1024]
  wf := gather_S25000x1024_S80000x1_S80000x1024_1_0_n_n_0_1_11024_wf
def scatter_S5000x1024_S80000x1_S80000x1024_1_0_0_1 : ScatterDims S5000x1024 S80000x1 S80000x1024 where
  updateWindowDims := [1]
  insertedWindowDims := [0]
  scatterDimsToOperandDims := [0]
  indexVectorDim := 1
  wf := scatter_S5000x1024_S80000x1_S80000x1024_1_0_0_1_wf
def scatter_S5000_S80000x1_S80000_n_0_0_1 : ScatterDims S5000 S80000x1 S80000 where
  updateWindowDims := []
  insertedWindowDims := [0]
  scatterDimsToOperandDims := [0]
  indexVectorDim := 1
  wf := scatter_S5000_S80000x1_S80000_n_0_0_1_wf
def dot_S5000x1024_S1024x64_S5000x64_1_0_0_1_n_n : DotDims S5000x1024 S1024x64 S5000x64 where
  lhsContracting := [1]
  rhsContracting := [0]
  lhsNonContracting := [0]
  rhsNonContracting := [1]
  lhsBatch := []
  rhsBatch := []
  wf := dot_S5000x1024_S1024x64_S5000x64_1_0_0_1_n_n_wf

class Facts : Prop extends Facts₀ where

variable [Facts]
-- ==== Proof.Spec.lean ====
/-
  The mathematics both programs compute, stated index by index over the extended reals.

  A three-layer sampled graph convolution.  Layer 0 is an affine map followed by a rectifier, minus a history
  term:  h0[r, j] = max (Σ_k x[r, k] · W0ᵀ[k, j] + b0[j]) 0 - hist0[r, j].  Between the layers the rows are gathered
  along the edge sources and summed per edge destination (both programs apply the very same gather and
  scatter-add, so those stay opaque here).  Layers 1 and 2 first form the mean aggregate
  agg[r, k] = sums[r, k] · q[r] + a[r, k]  (q the reciprocal of the clamped degree), then apply an affine map;
  layer 1 stores the affine result and its rectified copy side by side, each minus its history column.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- A matrix of extended reals with `M` rows and `N` columns. -/
abbrev Mat (M N : Nat) := FVec Ideal (⟨2, ![M, N]⟩ : Shape) .f32

/-- The zero the rectifier compares against. -/
abbrev zero32 : EReal := Ideal.ofBits .f32 0x00000000#32

/-- One entry of the affine map `A · Wt + b`: the row of `A` against the column of `Wt`, plus the bias row's entry. -/
def affAt {M K N : Nat} (A : Mat M K) (Wt : Mat K N) (b : Mat 1 N) (r : Fin M) (j : Fin N) : EReal :=
  (∑ k : Fin K, A (ix2 r k) * Wt (ix2 k j)) + b (ix2 0 j)

/-- One entry of the mean aggregate: the segment sum scaled by the row's reciprocal degree, plus the history aggregate. -/
def aggAt {M K : Nat} (s : Mat M K) (q : Mat M 1) (a : Mat M K) (r : Fin M) (k : Fin K) : EReal :=
  s (ix2 r k) * q (ix2 r 0) + a (ix2 r k)

/-- The mean aggregate as a matrix. -/
def agg {M K : Nat} (s : Mat M K) (q : Mat M 1) (a : Mat M K) : Mat M K := fun i => aggAt s q a (i 0) (i 1)

/-- The one the degree is clamped against and the reciprocal's numerator. -/
abbrev one32 : EReal := Ideal.ofBits .f32 0x3F800000#32

/-- A vector of extended reals of length `M`. -/
abbrev Vec1 (M : Nat) := FVec Ideal (⟨1, ![M]⟩ : Shape) .f32

/-- The reciprocals of a degree vector, laid out as a column. -/
def recipCol {M : Nat} (d : Vec1 M) : Mat M 1 := fun i => Ideal.div one32 (d (ix1 (i 0)))

/-- Layer 0 at an entry: rectified affine map minus the history. -/
def lin0At {M K N : Nat} (x : Mat M K) (wt : Mat K N) (b : Mat 1 N) (h : Mat M N) (r : Fin M) (j : Fin N) : EReal :=
  max (affAt x wt b r j) zero32 - h (ix2 r j)

/-- Layer 0 as a matrix. -/
def lin0 {M K N : Nat} (x : Mat M K) (wt : Mat K N) (b : Mat 1 N) (h : Mat M N) : Mat M N :=
  fun i => lin0At x wt b h (i 0) (i 1)

/-- Layer 1 at an entry of the left half (columns below 512): the affine map of the aggregate minus the history. -/
def lin1LeftAt (s : Mat 25000 512) (q : Mat 25000 1) (a : Mat 25000 512) (wt : Mat 512 512) (b : Mat 1 512)
    (h : Mat 25000 1024) (r : Fin 25000) (j : Fin 512) : EReal :=
  affAt (agg s q a) wt b r j - h (ix2 r ⟨j.val, by omega⟩)

/-- Layer 1 at an entry of the right half (columns 512 and up): the rectified affine map minus the history. -/
def lin1RightAt (s : Mat 25000 512) (q : Mat 25000 1) (a : Mat 25000 512) (wt : Mat 512 512) (b : Mat 1 512)
    (h : Mat 25000 1024) (r : Fin 25000) (j : Fin 512) : EReal :=
  max (affAt (agg s q a) wt b r j) zero32 - h (ix2 r ⟨512 + j.val, by omega⟩)

/-- Layer 1 as a matrix: the two halves side by side. -/
def lin1 (s : Mat 25000 512) (q : Mat 25000 1) (a : Mat 25000 512) (wt : Mat 512 512) (b : Mat 1 512)
    (h : Mat 25000 1024) : Mat 25000 1024 :=
  fun i => if hlt : (i 1).val < 512 then lin1LeftAt s q a wt b h (i 0) ⟨(i 1).val, hlt⟩
    else lin1RightAt s q a wt b h (i 0) ⟨(i 1).val - 512, by have h1 : (i 1).val < 1024 := (i 1).isLt; omega⟩

/-- Layer 2 as a matrix: the affine map of the aggregate. -/
def lin2 (s : Mat 5000 1024) (q : Mat 5000 1) (a : Mat 5000 1024) (wt : Mat 1024 64) (b : Mat 1 64) : Mat 5000 64 :=
  fun i => affAt (agg s q a) wt b (i 0) (i 1)

end Cert.Gcn

end
-- ==== Proof.KernelHost.lean ====
/-
  The host stretches of the kernel's program between its three regions, as functions: along each layer's edges a row is taken
  at the edge's source (a fill row where the source position lies outside the array), the rows are summed per destination,
  and the destinations' in-degrees are counted, clamped below by one and inverted.
-/
import proofs.«410037_j18141941859035_2_alg».proof.KernelIdeal
import proofs.«410037_j18141941859035_2_alg».proof.Proof.Gen.KernelIdeal
import Idealize.ShloMosaic.PureOps.Ideal

noncomputable section

namespace Cert.Gcn.KHost

open Cert.KernelIdeal Cert.KernelIdeal.Gen Idealize.ShloMosaic

/-- The gather positions of layer 0's edges: a negative source index is counted from the end, and the vector is laid out as a column. -/
def kIdx0 (src : IVec S400000 32) : IVec S400000x1 32 :=
  broadcastInDim S400000x1 ![0] bcast_S400000_S400000x1_0
    (select (cmpi .slt src (broadcastInDim S400000 ![] bcast_S_S400000 (constantI S_ 32 0#32)))
      (addi src (broadcastInDim S400000 ![] bcast_S_S400000 (constantI S_ 32 100000#32))) src)

/-- Which edges' source positions lie inside the source array (rows 0 to 99999). -/
def kMask0 (src : IVec S400000 32) : IVec S400000 1 :=
  Host.reduce IntOp.andi
    (andi (cmpi .sge (kIdx0 src) (broadcastInDim S400000x1 ![] bcast_S_S400000x1 (constantI S_ 32 0#32)))
      (cmpi .sle (kIdx0 src) (broadcastInDim S400000x1 ![0, 1] bcast_S1x1_S400000x1_0_1
        (broadcastInDim S1x1 ![1] bcast_S1_S1x1_1 (constantI S1 32 99999#32)))))
    (constantI S_ 1 1#1) reducesTo_S400000x1_S400000_d1 h_S_

/-- The rows the kernel's program takes along the edge sources: the gathered row where the position lies inside the array, a
    fill row elsewhere. -/
def kTake0 (h : FVec Ideal S100000x512 .f32) (src : IVec S400000 32) : FVec Ideal S400000x512 .f32 :=
  select (broadcastInDim S400000x512 ![0] bcast_S400000_S400000x512_0 (kMask0 src))
    (Host.gather gather_S100000x512_S400000x1_S400000x512_1_0_n_n_0_1_1512 h (kIdx0 src))
    (broadcastInDim S400000x512 ![] bcast_S_S400000x512 (constant S_ .f32 0x7FC00000#32))

/-- The gathered rows alone. -/
def kGather0 (h : FVec Ideal S100000x512 .f32) (src : IVec S400000 32) : FVec Ideal S400000x512 .f32 :=
  Host.gather gather_S100000x512_S400000x1_S400000x512_1_0_n_n_0_1_1512 h (kIdx0 src)

/-- The sum of message rows per edge destination. -/
def kScatter0 (msg : FVec Ideal S400000x512 .f32) (dst : IVec S400000 32) : FVec Ideal S25000x512 .f32 :=
  Host.scatterAdd scatter_S25000x512_S400000x1_S400000x512_1_0_0_1
    (broadcastInDim S25000x512 ![] bcast_S_S25000x512 (constant S_ .f32 0x00000000#32))
    (broadcastInDim S400000x1 ![0] bcast_S400000_S400000x1_0 dst) msg

/-- The in-degree of every destination, clamped below by one. -/
def kDeg0 (dst : IVec S400000 32) : FVec Ideal S25000 .f32 :=
  maximumf
    (Host.scatterAdd scatter_S25000_S400000x1_S400000_n_0_0_1
      (broadcastInDim S25000 ![] bcast_S_S25000 (constant S_ .f32 0x00000000#32))
      (broadcastInDim S400000x1 ![0] bcast_S400000_S400000x1_0 dst)
      (broadcastInDim S400000 ![] bcast_S_S400000 (constant S_ .f32 0x3F800000#32)))
    (broadcastInDim S25000 ![] bcast_S_S25000 (constant S_ .f32 0x3F800000#32))

/-- The reciprocal of the clamped degree, as the kernel's program lays it out: a column. -/
def kInv0 (dst : IVec S400000 32) : FVec Ideal S25000x1 .f32 :=
  shapeCast S25000x1
    (Host.divf (broadcastInDim S25000 ![] bcast_S_S25000 (constant S_ .f32 0x3F800000#32)) (kDeg0 dst))
    shapeCasts_S25000_S25000x1

/-- The gather positions of layer 1's edges: a negative source index is counted from the end, and the vector is laid out as a column. -/
def kIdx1 (src : IVec S80000 32) : IVec S80000x1 32 :=
  broadcastInDim S80000x1 ![0] bcast_S80000_S80000x1_0
    (select (cmpi .slt src (broadcastInDim S80000 ![] bcast_S_S80000 (constantI S_ 32 0#32)))
      (addi src (broadcastInDim S80000 ![] bcast_S_S80000 (constantI S_ 32 25000#32))) src)

/-- Which edges' source positions lie inside the source array (rows 0 to 24999). -/
def kMask1 (src : IVec S80000 32) : IVec S80000 1 :=
  Host.reduce IntOp.andi
    (andi (cmpi .sge (kIdx1 src) (broadcastInDim S80000x1 ![] bcast_S_S80000x1 (constantI S_ 32 0#32)))
      (cmpi .sle (kIdx1 src) (broadcastInDim S80000x1 ![0, 1] bcast_S1x1_S80000x1_0_1
        (broadcastInDim S1x1 ![1] bcast_S1_S1x1_1 (constantI S1 32 24999#32)))))
    (constantI S_ 1 1#1) reducesTo_S80000x1_S80000_d1 h_S_

/-- The rows the kernel's program takes along the edge sources: the gathered row where the position lies inside the array, a
    fill row elsewhere. -/
def kTake1 (h : FVec Ideal S25000x1024 .f32) (src : IVec S80000 32) : FVec Ideal S80000x1024 .f32 :=
  select (broadcastInDim S80000x1024 ![0] bcast_S80000_S80000x1024_0 (kMask1 src))
    (Host.gather gather_S25000x1024_S80000x1_S80000x1024_1_0_n_n_0_1_11024 h (kIdx1 src))
    (broadcastInDim S80000x1024 ![] bcast_S_S80000x1024 (constant S_ .f32 0x7FC00000#32))

/-- The gathered rows alone. -/
def kGather1 (h : FVec Ideal S25000x1024 .f32) (src : IVec S80000 32) : FVec Ideal S80000x1024 .f32 :=
  Host.gather gather_S25000x1024_S80000x1_S80000x1024_1_0_n_n_0_1_11024 h (kIdx1 src)

/-- The sum of message rows per edge destination. -/
def kScatter1 (msg : FVec Ideal S80000x1024 .f32) (dst : IVec S80000 32) : FVec Ideal S5000x1024 .f32 :=
  Host.scatterAdd scatter_S5000x1024_S80000x1_S80000x1024_1_0_0_1
    (broadcastInDim S5000x1024 ![] bcast_S_S5000x1024 (constant S_ .f32 0x00000000#32))
    (broadcastInDim S80000x1 ![0] bcast_S80000_S80000x1_0 dst) msg

/-- The in-degree of every destination, clamped below by one. -/
def kDeg1 (dst : IVec S80000 32) : FVec Ideal S5000 .f32 :=
  maximumf
    (Host.scatterAdd scatter_S5000_S80000x1_S80000_n_0_0_1
      (broadcastInDim S5000 ![] bcast_S_S5000 (constant S_ .f32 0x00000000#32))
      (broadcastInDim S80000x1 ![0] bcast_S80000_S80000x1_0 dst)
      (broadcastInDim S80000 ![] bcast_S_S80000 (constant S_ .f32 0x3F800000#32)))
    (broadcastInDim S5000 ![] bcast_S_S5000 (constant S_ .f32 0x3F800000#32))

/-- The reciprocal of the clamped degree, as the kernel's program lays it out: a column. -/
def kInv1 (dst : IVec S80000 32) : FVec Ideal S5000x1 .f32 :=
  shapeCast S5000x1
    (Host.divf (broadcastInDim S5000 ![] bcast_S_S5000 (constant S_ .f32 0x3F800000#32)) (kDeg1 dst))
    shapeCasts_S5000_S5000x1

end Cert.Gcn.KHost

end
-- ==== Proof.Layer0Kernel.lean ====
/-
  Layer 0 of the kernel, read off its pipeline: what the region's write-backs leave in the output array, as one function of
  the arrays the region finds.
-/
import proofs.«410037_j18141941859035_2_alg».proof.Proof.Gen.KernelIdeal.Frame
import proofs.«410037_j18141941859035_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.K0

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The body's product of a row block with the weight matrix, read at an entry -/

/-- The left operand's row coordinate is the output's row. -/
theorem lhs_dot_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
/-- The left operand's column coordinate is the summation index. -/
theorem lhs_dot_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
/-- The right operand's row coordinate is the summation index. -/
theorem rhs_dot_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
/-- The right operand's column coordinate is the output's column. -/
theorem rhs_dot_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The product into the zero accumulator at entry (p, q): row p of the left operand against column q of the right. -/
theorem dot_apply (a : FVec Ideal S2000x512 .bf16) (b : FVec Ideal S512x512 .bf16) (p : Fin 2000) (q : Fin 512) :
    matmul dot_S2000x512_S512x512_S2000x512_1_0_0_1_n_n none a b (constant (F := Ideal) S2000x512 .f32 0x00000000#32) (ix2 p q)
      = ∑ k : Fin 512, a (ix2 p k) * b (ix2 k q) := by
  simp only [matmul]
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S2000x512_S512x512_S2000x512_1_0_0_1_n_n.rhsIdx (ix2 p q) ((contrEquiv1 dot_S2000x512_S512x512_S2000x512_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]

/-! ## The body's payload at an entry -/

/-- What the body stores at entry (p, q) of its block: the rectified affine map of row p of the row block, minus the
    history block's entry. The casts to the same shape and the narrowing of the operands are the identity on the
    extended reals; the bias row is repeated down the rows. -/
theorem pay_apply (x0 : Vec Ideal S2000x512 .f32) (x1 : Vec Ideal S512x512 .f32) (x2 : Vec Ideal S1x512 .f32)
    (x3 : Vec Ideal S2000x512 .f32) (p : Fin 2000) (q : Fin 512) :
    k0_pay1 (F := Ideal) x0 x1 x2 x3 (ix2 p q)
      = max ((∑ k : Fin 512, x0 (ix2 p k) * x1 (ix2 k q)) + x2 (ix2 0 q)) zero32 - x3 (ix2 p q) := by
  unfold k0_pay1
  simp only [subf_apply, maximumf_apply, addf_apply, broadcast_apply]
  rw [dot_apply, shapeCast_self, shapeCast_self,
    broadcastTo_apply x2 broadcasts_S1x512_S2000x512 (ix2 p q) (ix2 0 q) (fun a => by
      match a with
      | ⟨0, _⟩ => rfl
      | ⟨1, _⟩ => rfl)]
  rfl

/-! ## A block's payload is the layer's block -/

/-- Layer 0 at an entry, spelled out. -/
theorem lin0_ix2 {M K N : Nat} (x : Mat M K) (wt : Mat K N) (b : Mat 1 N) (h : Mat M N) (r : Fin M) (j : Fin N) :
    lin0 x wt b h (ix2 r j) = max ((∑ k : Fin K, x (ix2 r k) * wt (ix2 k j)) + b (ix2 0 j)) zero32 - h (ix2 r j) := rfl

/-- If a row block's row p is row r of the input, the weight block is the weight matrix, the bias block the bias row, and
    the history block's row p is row r of the history, then the body's payload at (p, q) is layer 0 at (r, q). -/
theorem pay_eq_lin0 (x0 : Vec Ideal S2000x512 .f32) (x1 : Vec Ideal S512x512 .f32) (x2 : Vec Ideal S1x512 .f32)
    (x3 : Vec Ideal S2000x512 .f32) (a0 : Mat 100000 512) (a1 : Mat 512 512) (a2 : Mat 1 512) (a3 : Mat 100000 512)
    (p : Fin 2000) (q : Fin 512) (r : Fin 100000)
    (h0 : ∀ k : Fin 512, x0 (ix2 p k) = a0 (ix2 r k)) (h1 : ∀ k : Fin 512, x1 (ix2 k q) = a1 (ix2 k q))
    (h2 : x2 (ix2 0 q) = a2 (ix2 0 q)) (h3 : x3 (ix2 p q) = a3 (ix2 r q)) :
    k0_pay1 (F := Ideal) x0 x1 x2 x3 (ix2 p q) = lin0 a0 a1 a2 a3 (ix2 r q) := by
  rw [pay_apply, lin0_ix2, h2, h3, Finset.sum_congr rfl fun k _ => by rw [h0 k, h1 k]]

variable (V : (c : Dev nD) → (b : Ref sig .tc) → Buf (Elt Ideal) ((c : Thread nD τ).loc b))

/-! ## From the blocks to the array -/

/-- The body's rectangles start at the origin. -/
theorem hz : (![0, 0] : Fin 2 → Nat) = fun _ => 0 := funext fun a => by fin_cases a <;> rfl

/-- The windows' index maps over the grid: the row blocks of the input, of the history and of the output sit at the
    point's number; the weight matrix and the bias row are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The input's block at point t, entry (p, k), is the input's entry (2000 t + p, k). -/
theorem blk0_apply (c : Dev nD) (t : Fin cfg0.N) (p : Fin 2000) (k : Fin 512) (r : Fin 100000)
    (hr : r.val = t.val * 2000 + p.val) :
    (iblk0 (F := Ideal) V c 0 t : Vec Ideal S2000x512 .f32) (ix2 p k) = (V c main_arg0 : Mat 100000 512) (ix2 r k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 512 + 1 * k.val = k.val; omega

/-- The weight matrix's block is the weight matrix. -/
theorem blk1_apply (c : Dev nD) (t : Fin cfg0.N) (k : Fin 512) (q : Fin 512) :
    (iblk0 (F := Ideal) V c 1 t : Vec Ideal S512x512 .f32) (ix2 k q) = (V c main_v0 : Mat 512 512) (ix2 k q) := by
  obtain ⟨-, -, e0, e1, -⟩ := idx_facts t
  unfold iblk0
  rw [View.read_apply]
  show V c main_v0 _ = V c main_v0 _
  refine congrArg (V c main_v0) (funext fun a => Fin.ext ?_)
  match a with
  | ⟨0, _⟩ => show win0_1.index t (0 : Fin 2) * 512 + 1 * k.val = k.val; omega
  | ⟨1, _⟩ => show win0_1.index t (1 : Fin 2) * 512 + 1 * q.val = q.val; omega

/-- The bias row's block is the bias row. -/
theorem blk2_apply (c : Dev nD) (t : Fin cfg0.N) (q : Fin 512) :
    (iblk0 (F := Ideal) V c 2 t : Vec Ideal S1x512 .f32) (ix2 0 q) = (V c main_v3 : Mat 1 512) (ix2 0 q) := by
  obtain ⟨-, -, -, -, e0, e1, -⟩ := idx_facts t
  unfold iblk0
  rw [View.read_apply]
  show V c main_v3 _ = V c main_v3 _
  refine congrArg (V c main_v3) (funext fun a => Fin.ext ?_)
  match a with
  | ⟨0, _⟩ => show win0_2.index t (0 : Fin 2) * 1 + 1 * 0 = 0; omega
  | ⟨1, _⟩ => show win0_2.index t (1 : Fin 2) * 512 + 1 * q.val = q.val; omega

/-- The history's block at point t, entry (p, q), is the history's entry (2000 t + p, q). -/
theorem blk3_apply (c : Dev nD) (t : Fin cfg0.N) (p : Fin 2000) (q : Fin 512) (r : Fin 100000)
    (hr : r.val = t.val * 2000 + p.val) :
    (iblk0 (F := Ideal) V c 3 t : Vec Ideal S2000x512 .f32) (ix2 p q) = (V c main_arg1 : Mat 100000 512) (ix2 r q) := by
  obtain ⟨-, -, -, -, -, -, e0, e1, -⟩ := idx_facts t
  unfold iblk0
  rw [View.read_apply]
  show V c main_arg1 _ = V c main_arg1 _
  refine congrArg (V c main_arg1) (funext fun a => Fin.ext ?_)
  match a with
  | ⟨0, _⟩ => show win0_3.index t (0 : Fin 2) * 2000 + 1 * p.val = r.val; omega
  | ⟨1, _⟩ => show win0_3.index t (1 : Fin 2) * 512 + 1 * q.val = q.val; omega

/-- Where point t's output block puts its entry (p, q): at row 2000 t + p of the array. -/
theorem emb4 (t : Fin cfg0.N) (p : Fin 2000) (q : Fin 512) (hlt : t.val * 2000 + p.val < 100000) :
    ((cfg0.win 4).blk t).view.emb (ix2 p q) = ix2 (⟨t.val * 2000 + p.val, hlt⟩ : Fin 100000) q := by
  obtain ⟨-, -, -, -, -, -, -, -, e0, e1⟩ := idx_facts t
  exact funext fun a => Fin.ext (by
      match a with
      | ⟨0, _⟩ => show win0_4.index t (0 : Fin 2) * 2000 + 1 * p.val = t.val * 2000 + p.val; omega
      | ⟨1, _⟩ => show win0_4.index t (1 : Fin 2) * 512 + 1 * q.val = q.val; omega)

/-- What point t writes back is block t of layer 0 of the arrays the region found. -/
theorem flushed_eq (c : Dev nD) (t : Fin cfg0.N) :
    (dat0 (F := Ideal) V c).flushed 4 t
      = ((cfg0.win 4).blk t).view.read (Elt Ideal) (lin0 (V c main_arg0) (V c main_v0) (V c main_v3) (V c main_arg1)) := by
  show (cfg0.win 4).cut (grid0.coords t) ((dat0 (F := Ideal) V c).after 4 t) = _
  rw [after0_4]
  unfold out0_4
  rw [View.canon_unit_zero hz]
  simp only [View.ld_unit_zero (S := S2000x512) hz, View.ld_unit_zero (S := S512x512) hz, View.ld_unit_zero (S := S1x512) hz]
  have ht : t.val < 50 := lt_of_lt_of_eq t.isLt N_0
  funext j
  obtain ⟨p, q, rfl⟩ : ∃ (p : Fin 2000) (q : Fin 512), j = ix2 p q := ⟨j 0, j 1, eq_ix2 j⟩
  have hlt : t.val * 2000 + p.val < 100000 := by have := p.isLt; omega
  refine (pay_eq_lin0 (iblk0 V c 0 t) (iblk0 V c 1 t) (iblk0 V c 2 t) (iblk0 V c 3 t)
    (V c main_arg0) (V c main_v0) (V c main_v3) (V c main_arg1) p q ⟨t.val * 2000 + p.val, hlt⟩
    (fun k => blk0_apply V c t p k _ rfl) (fun k => blk1_apply V c t k q) (blk2_apply V c t q)
    (blk3_apply V c t p q _ rfl)).trans ?_
  show _ = (lin0 (V c main_arg0) (V c main_v0) (V c main_v3) (V c main_arg1)) (((cfg0.win 4).blk t).view.emb (ix2 p q))
  rw [emb4 t p q hlt]

/-- An entry of the output is in point t's block iff its row is one of the block's 2000 rows. -/
theorem mem_blk (t : Fin cfg0.N) (i : S100000x512.Idx) :
    i ∈ ((cfg0.win 4).blk t).view.set ↔ ∀ a : Fin 2, win0_4.index t a * S2000x512.size a ≤ (i a).val ∧ (i a).val < win0_4.index t a * S2000x512.size a + S2000x512.size a := by
  show i ∈ ((View.whole main_v6).slice (win0_4.rect t)).set ↔ _
  rw [View.set_slice_whole, Rect.mem_set_unit]
  exact Iff.rfl

/-- Every entry of the output is written: row r by the point r / 2000. -/
theorem cover (i : S100000x512.Idx) :
    ∃ t : Fin cfg0.N, (cfg0.win 4).flush t = true ∧ i ∈ ((cfg0.win 4).blk t).view.set := by
  have hN : grid0.N = 50 := N_0
  have hi0 : (i 0).val < 100000 := (i 0).isLt
  have hi1 : (i 1).val < 512 := (i 1).isLt
  have hlt : (i 0).val / 2000 < cfg0.N := by show _ < grid0.N; rw [hN]; omega
  refine ⟨⟨(i 0).val / 2000, hlt⟩, flush0_4 _, ?_⟩
  rw [mem_blk]
  obtain ⟨-, -, -, -, -, -, -, -, e0, e1⟩ := idx_facts ⟨(i 0).val / 2000, hlt⟩
  intro a
  match a with
  | ⟨0, _⟩ =>
    show win0_4.index ⟨(i 0).val / 2000, hlt⟩ (0 : Fin 2) * 2000 ≤ (i 0).val ∧ (i 0).val < win0_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, hlt⟩ (1 : Fin 2) * 512 ≤ (i 1).val ∧ (i 1).val < win0_4.index ⟨(i 0).val / 2000, hlt⟩ (1 : Fin 2) * 512 + 512
    rw [e1]; omega

/-- After region 0 its output array holds layer 0 of the arrays the region found: rows in blocks of 2000, each block the
    rectified affine map of the block's rows minus the history block. -/
theorem value (c : Dev nD) :
    (dat0 (F := Ideal) V c).arrAt 4 cfg0.N = lin0 (V c main_arg0) (V c main_v0) (V c main_v3) (V c main_arg1) :=
  (dat0 (F := Ideal) V c).arrAt_eq_of_cover 4 (lin0 (V c main_arg0) (V c main_v0) (V c main_v3) (V c main_arg1))
    (fun t _ => flushed_eq V c t) (cover)

end Cert.Gcn.K0

end
-- ==== Proof.Layer1Kernel.lean ====
/-
  Layer 1 of the kernel, read off its pipeline: what the region's write-backs leave in the output array, as one function of
  the arrays the region finds.
-/
import proofs.«410037_j18141941859035_2_alg».proof.Proof.Gen.KernelIdeal.Frame
import proofs.«410037_j18141941859035_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.K1

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The body's arithmetic at an entry -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand index keeps the output's row. -/
theorem lhs_dot_0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
/-- Its column is the contracted index. -/
theorem lhs_dot_1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
/-- The right operand's row is the contracted index. -/
theorem rhs_dot_0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
/-- Its column is the output's column. -/
theorem rhs_dot_1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The block's matrix product into the zero accumulator, at an entry: the row of the left operand against the column of
    the right one. -/
theorem matmul_block_apply (A : FVec Ideal S1000x512 .bf16) (B : FVec Ideal S512x512 .bf16) (p : Fin 1000) (q : Fin 512) :
    matmul dot_S1000x512_S512x512_S1000x512_1_0_0_1_n_n none A B (constant (F := Ideal) S1000x512 .f32 0x00000000#32) (ix2 p q)
      = ∑ k : Fin 512, A (ix2 p k) * B (ix2 k q) := by
  refine (Ideal.matmul_constant_zero_apply dot_S1000x512_S512x512_S1000x512_1_0_0_1_n_n none A B (ix2 p q)).trans ?_
  rw [← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx (ix2 p q) ((ValueIdx.contrEquiv1 dot_S1000x512_S512x512_S1000x512_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S1000x512_S512x512_S1000x512_1_0_0_1_n_n.rhsIdx (ix2 p q) ((ValueIdx.contrEquiv1 dot_S1000x512_S512x512_S1000x512_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]

/-- The affine map of the block's mean aggregate, at an entry. -/
theorem pay1_apply (x0 : Vec Ideal S1000x512 .f32) (x1 : Vec Ideal S1000x1 .f32) (x2 : Vec Ideal S1000x512 .f32)
    (x3 : Vec Ideal S512x512 .f32) (x4 : Vec Ideal S1x512 .f32) (p : Fin 1000) (q : Fin 512) :
    k1_pay1 (F := Ideal) x0 x1 x2 x3 x4 (ix2 p q)
      = (∑ k : Fin 512, (x0 (ix2 p k) * x1 (ix2 p (0 : Fin 1)) + x2 (ix2 p k)) * x3 (ix2 k q)) + x4 (ix2 (0 : Fin 1) q) := by
  unfold k1_pay1
  simp only [shapeCast_self]
  rw [addf_apply, broadcastTo_1b_ab_apply, matmul_block_apply]
  refine congrArg (· + x4 (ix2 (0 : Fin 1) q)) (Finset.sum_congr rfl fun k _ => ?_)
  rw [truncf_apply, truncf_apply, addf_apply, mulf_apply, broadcastTo_a1_ab_apply]

/-! ## The output block after the body -/

theorem hz2 : (![0, 0] : Fin 2 → Nat) = fun _ => 0 := funext fun a => by fin_cases a <;> rfl

/-- The left-half rectangle places a block entry at the same row and column. -/
theorem emb_left (p : Fin 1000) (q : Fin 1024) (hlt : q.val < 512) :
    (r1_4).emb (ix2 p (⟨q.val, hlt⟩ : Fin 512)) = (ix2 p q : S1000x1024.Idx) :=
  funext fun a => Fin.ext (by
    match a with
    | ⟨0, _⟩ => show 0 + 1 * p.val = p.val; omega
    | ⟨1, _⟩ => show 0 + 1 * q.val = q.val; omega)

/-- The right-half rectangle places a block entry at the same row, 512 columns further. -/
theorem emb_right (p : Fin 1000) (q : Fin 1024) (hge : ¬ q.val < 512) :
    (r1_5).emb (ix2 p (⟨q.val - 512, by have := q.isLt; omega⟩ : Fin 512)) = (ix2 p q : S1000x1024.Idx) :=
  funext fun a => Fin.ext (by
    match a with
    | ⟨0, _⟩ => show 0 + 1 * p.val = p.val; omega
    | ⟨1, _⟩ => show 512 + 1 * (q.val - 512) = q.val; omega)

/-- Two stores, one per half: a left-half entry holds the earlier store's payload there. -/
theorem canon_left (P3 P2 : Vec Ideal S1000x512 .f32) (p : Fin 1000) (q : Fin 1024) (hlt : q.val < 512) :
    View.canon ([⟨r1_5, P3⟩, ⟨r1_4, P2⟩] : List (View.Piece (Elt Ideal) S1000x1024 .f32)) (ix2 p q)
      = P2 (ix2 p (⟨q.val, hlt⟩ : Fin 512)) := by
  have hn : (ix2 p q : S1000x1024.Idx) ∉ ((⟨r1_5, P3⟩ : View.Piece (Elt Ideal) S1000x1024 .f32)).1.set := by
    show (ix2 p q : S1000x1024.Idx) ∉ (r1_5).set
    rw [Rect.mem_set_unit]
    intro h
    have h1 : 512 ≤ q.val := (h 1).1
    omega
  rw [View.canon_cons_of_not_mem _ _ hn, ← emb_left p q hlt]
  exact View.canon_cons_emb r1_4 P2 [] _

/-- A right-half entry holds the later store's payload there. -/
theorem canon_right (P3 P2 : Vec Ideal S1000x512 .f32) (p : Fin 1000) (q : Fin 1024) (hge : ¬ q.val < 512) :
    View.canon ([⟨r1_5, P3⟩, ⟨r1_4, P2⟩] : List (View.Piece (Elt Ideal) S1000x1024 .f32)) (ix2 p q)
      = P3 (ix2 p (⟨q.val - 512, by have := q.isLt; omega⟩ : Fin 512)) := by
  rw [← emb_right p q hge]
  exact View.canon_cons_emb r1_5 P3 _ _

/-- The output block at a left-half entry: the affine map of the block's aggregate minus the history block there. -/
theorem out_left (x0 : Vec Ideal S1000x512 .f32) (x1 : Vec Ideal S1000x1 .f32) (x2 : Vec Ideal S1000x512 .f32)
    (x3 : Vec Ideal S512x512 .f32) (x4 : Vec Ideal S1x512 .f32) (x5 : Vec Ideal S1000x1024 .f32)
    (p : Fin 1000) (q : Fin 1024) (hlt : q.val < 512) :
    out1_6 (F := Ideal) x0 x1 x2 x3 x4 x5 (ix2 p q)
      = ((∑ k : Fin 512, (x0 (ix2 p k) * x1 (ix2 p (0 : Fin 1)) + x2 (ix2 p k)) * x3 (ix2 k (⟨q.val, hlt⟩ : Fin 512)))
          + x4 (ix2 (0 : Fin 1) (⟨q.val, hlt⟩ : Fin 512))) - x5 (ix2 p q) := by
  unfold out1_6
  simp only [View.ld_unit_zero (S := S1000x512) hz2, View.ld_unit_zero (S := S1000x1) hz2,
    View.ld_unit_zero (S := S512x512) hz2, View.ld_unit_zero (S := S1x512) hz2]
  rw [canon_left _ _ p q hlt]
  unfold k1_pay2
  rw [subf_apply, pay1_apply]
  refine congrArg₂ (· - ·) rfl ?_
  show x5 ((r1_4).emb (ix2 p (⟨q.val, hlt⟩ : Fin 512))) = _
  rw [emb_left p q hlt]

/-- The output block at a right-half entry: the rectified affine map minus the history block there. -/
theorem out_right (x0 : Vec Ideal S1000x512 .f32) (x1 : Vec Ideal S1000x1 .f32) (x2 : Vec Ideal S1000x512 .f32)
    (x3 : Vec Ideal S512x512 .f32) (x4 : Vec Ideal S1x512 .f32) (x5 : Vec Ideal S1000x1024 .f32)
    (p : Fin 1000) (q : Fin 1024) (hge : ¬ q.val < 512) :
    out1_6 (F := Ideal) x0 x1 x2 x3 x4 x5 (ix2 p q)
      = max ((∑ k : Fin 512, (x0 (ix2 p k) * x1 (ix2 p (0 : Fin 1)) + x2 (ix2 p k))
              * x3 (ix2 k (⟨q.val - 512, by have := q.isLt; omega⟩ : Fin 512)))
          + x4 (ix2 (0 : Fin 1) (⟨q.val - 512, by have := q.isLt; omega⟩ : Fin 512))) zero32 - x5 (ix2 p q) := by
  unfold out1_6
  simp only [View.ld_unit_zero (S := S1000x512) hz2, View.ld_unit_zero (S := S1000x1) hz2,
    View.ld_unit_zero (S := S512x512) hz2, View.ld_unit_zero (S := S1x512) hz2]
  rw [canon_right _ _ p q hge]
  unfold k1_pay3
  rw [subf_apply, maximumf_apply, broadcast_apply, pay1_apply]
  refine congrArg₂ (· - ·) rfl ?_
  show x5 ((r1_5).emb (ix2 p (⟨q.val - 512, by have := q.isLt; omega⟩ : Fin 512))) = _
  rw [emb_right p q hge]

/-! ## The specification at an entry of either half -/

/-- Layer 1 at an entry of the left half. -/
theorem lin1_left (s : Mat 25000 512) (d : Mat 25000 1) (a : Mat 25000 512) (wt : Mat 512 512) (b : Mat 1 512)
    (h : Mat 25000 1024) (i : (⟨2, ![25000, 1024]⟩ : Shape).Idx) (r : Fin 25000) (j : Fin 512)
    (h0 : (i 0).val = r.val) (h1 : (i 1).val = j.val) :
    lin1 s d a wt b h i = affAt (agg s d a) wt b r j - h i := by
  have hi : i = ix2 r (⟨j.val, by clear h0 h1; have := j.isLt; omega⟩ : Fin 1024) :=
    funext fun a => Fin.ext (by
      match a with
      | ⟨0, _⟩ => exact h0
      | ⟨1, _⟩ => exact h1)
  subst hi
  unfold lin1
  split
  · rfl
  · rename_i hn; exact absurd j.isLt hn

/-- Layer 1 at an entry of the right half. -/
theorem lin1_right (s : Mat 25000 512) (d : Mat 25000 1) (a : Mat 25000 512) (wt : Mat 512 512) (b : Mat 1 512)
    (h : Mat 25000 1024) (i : (⟨2, ![25000, 1024]⟩ : Shape).Idx) (r : Fin 25000) (j : Fin 512)
    (h0 : (i 0).val = r.val) (h1 : (i 1).val = 512 + j.val) :
    lin1 s d a wt b h i = max (affAt (agg s d a) wt b r j) zero32 - h i := by
  have hi : i = ix2 r (⟨512 + j.val, by clear h0 h1; have := j.isLt; omega⟩ : Fin 1024) :=
    funext fun a => Fin.ext (by
      match a with
      | ⟨0, _⟩ => exact h0
      | ⟨1, _⟩ => exact h1)
  subst hi
  have e : ∀ j' : Fin 512, j'.val = j.val →
      lin1RightAt s d a wt b h r j' = max (affAt (agg s d a) wt b r j) zero32
        - h (ix2 r (⟨512 + j.val, by have := j.isLt; omega⟩ : Fin 1024)) := by
    intro j' hj'
    obtain rfl : j' = j := Fin.ext hj'
    rfl
  unfold lin1
  split
  · rename_i hlt
    have : 512 + j.val < 512 := hlt
    omega
  · exact e _ (by show 512 + j.val - 512 = j.val; omega)

/-! ## The blocks the body finds, read in the arrays -/

/-- The index maps of the region's windows: the row-blocked windows sit at block row `t`, block column `0`; the weight
    and bias windows are their whole arrays. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem pt_lt (t : Fin cfg1.N) : t.val < 25 := by
  have h := t.isLt
  have hN : cfg1.N = 25 := N_1
  omega

/-- Row `p` of block `t` is row `1000 t + p` of the array. -/
abbrev rowOf (t : Fin cfg1.N) (p : Fin 1000) : Fin 25000 :=
  ⟨t.val * 1000 + p.val, by have := pt_lt t; have := p.isLt; omega⟩

variable (V : (c : Dev nD) → (b : Ref sig .tc) → Buf (Elt Ideal) ((c : Thread nD τ).loc b))

theorem blk0 (c : Dev nD) (t : Fin cfg1.N) (p : Fin 1000) (k : Fin 512) :
    iblk1 V c 0 t (ix2 p k) = (V c main_v10 : Mat 25000 512) (ix2 (rowOf t p) k) := by
  obtain ⟨e00, e01, -⟩ := idx_facts t
  show V c main_v10 (((cfg1.win 0).blk t).view.emb (ix2 p k)) = _
  refine congrArg (V c main_v10) (funext fun a => Fin.ext ?_)
  match a with
  | ⟨0, _⟩ => show win1_0.index t (0 : Fin 2) * 1000 + 1 * p.val = t.val * 1000 + p.val; omega
  | ⟨1, _⟩ => show win1_0.index t (1 : Fin 2) * 512 + 1 * k.val = k.val; omega

theorem blk1 (c : Dev nD) (t : Fin cfg1.N) (p : Fin 1000) :
    iblk1 V c 1 t (ix2 p (0 : Fin 1)) = (V c main_v19 : Mat 25000 1) (ix2 (rowOf t p) (0 : Fin 1)) := by
  obtain ⟨-, -, e10, e11, -⟩ := idx_facts t
  show V c main_v19 (((cfg1.win 1).blk t).view.emb (ix2 p (0 : Fin 1))) = _
  refine congrArg (V c main_v19) (funext fun a => Fin.ext ?_)
  match a with
  | ⟨0, _⟩ => show win1_1.index t (0 : Fin 2) * 1000 + 1 * p.val = t.val * 1000 + p.val; omega
  | ⟨1, _⟩ => show win1_1.index t (1 : Fin 2) * 1 + 1 * 0 = 0; omega

theorem blk2 (c : Dev nD) (t : Fin cfg1.N) (p : Fin 1000) (k : Fin 512) :
    iblk1 V c 2 t (ix2 p k) = (V c main_arg2 : Mat 25000 512) (ix2 (rowOf t p) k) := by
  obtain ⟨-, -, -, -, e20, e21, -⟩ := idx_facts t
  show V c main_arg2 (((cfg1.win 2).blk t).view.emb (ix2 p k)) = _
  refine congrArg (V c main_arg2) (funext fun a => Fin.ext ?_)
  match a with
  | ⟨0, _⟩ => show win1_2.index t (0 : Fin 2) * 1000 + 1 * p.val = t.val * 1000 + p.val; omega
  | ⟨1, _⟩ => show win1_2.index t (1 : Fin 2) * 512 + 1 * k.val = k.val; omega

theorem blk3 (c : Dev nD) (t : Fin cfg1.N) (k : Fin 512) (j : Fin 512) :
    iblk1 V c 3 t (ix2 k j) = (V c main_v1 : Mat 512 512) (ix2 k j) := by
  obtain ⟨-, -, -, -, -, -, e30, e31, -⟩ := idx_facts t
  show V c main_v1 (((cfg1.win 3).blk t).view.emb (ix2 k j)) = _
  refine congrArg (V c main_v1) (funext fun a => Fin.ext ?_)
  match a with
  | ⟨0, _⟩ => show win1_3.index t (0 : Fin 2) * 512 + 1 * k.val = k.val; omega
  | ⟨1, _⟩ => show win1_3.index t (1 : Fin 2) * 512 + 1 * j.val = j.val; omega

theorem blk4 (c : Dev nD) (t : Fin cfg1.N) (j : Fin 512) :
    iblk1 V c 4 t (ix2 (0 : Fin 1) j) = (V c main_v4 : Mat 1 512) (ix2 (0 : Fin 1) j) := by
  obtain ⟨-, -, -, -, -, -, -, -, e40, e41, -⟩ := idx_facts t
  show V c main_v4 (((cfg1.win 4).blk t).view.emb (ix2 (0 : Fin 1) j)) = _
  refine congrArg (V c main_v4) (funext fun a => Fin.ext ?_)
  match a with
  | ⟨0, _⟩ => show win1_4.index t (0 : Fin 2) * 1 + 1 * 0 = 0; omega
  | ⟨1, _⟩ => show win1_4.index t (1 : Fin 2) * 512 + 1 * j.val = j.val; omega

theorem blk5 (c : Dev nD) (t : Fin cfg1.N) (p : Fin 1000) (q : Fin 1024) :
    iblk1 V c 5 t (ix2 p q) = (V c main_arg3 : Mat 25000 1024) (ix2 (rowOf t p) q) := by
  obtain ⟨-, -, -, -, -, -, -, -, -, -, e50, e51, -⟩ := idx_facts t
  show V c main_arg3 (((cfg1.win 5).blk t).view.emb (ix2 p q)) = _
  refine congrArg (V c main_arg3) (funext fun a => Fin.ext ?_)
  match a with
  | ⟨0, _⟩ => show win1_5.index t (0 : Fin 2) * 1000 + 1 * p.val = t.val * 1000 + p.val; omega
  | ⟨1, _⟩ => show win1_5.index t (1 : Fin 2) * 1024 + 1 * q.val = q.val; omega

/-- An entry of the output's block `t` sits in the array at row `1000 t + p`, same column. -/
theorem emb6 (t : Fin cfg1.N) (p : Fin 1000) (q : Fin 1024) :
    ((cfg1.win 6).blk t).view.emb (ix2 p q) = (ix2 (rowOf t p) q : (⟨2, ![25000, 1024]⟩ : Shape).Idx) := by
  obtain ⟨-, -, -, -, -, -, -, -, -, -, -, -, e60, e61⟩ := idx_facts t
  refine funext fun a => Fin.ext ?_
  match a with
  | ⟨0, _⟩ => show win1_6.index t (0 : Fin 2) * 1000 + 1 * p.val = t.val * 1000 + p.val; omega
  | ⟨1, _⟩ => show win1_6.index t (1 : Fin 2) * 1024 + 1 * q.val = q.val; omega

/-! ## From the blocks to the array -/

/-- What point `t` writes back is block `t` of layer 1 of the arrays the region finds. -/
theorem flushed_eq (c : Dev nD) (t : Fin cfg1.N) :
    (dat1 (F := Ideal) V c).flushed 6 t
      = ((cfg1.win 6).blk t).view.read (Elt Ideal)
          (lin1 (V c main_v10) (V c main_v19) (V c main_arg2) (V c main_v1) (V c main_v4) (V c main_arg3)) := by
  show (cfg1.win 6).cut (grid1.coords t) ((dat1 V c).after 6 t) = _
  rw [after1_6]
  funext y
  obtain ⟨p, q, rfl⟩ : ∃ (p : Fin 1000) (q : Fin 1024), y = ix2 p q := ⟨y 0, y 1, eq_ix2 y⟩
  show out1_6 (iblk1 V c 0 t) (iblk1 V c 1 t) (iblk1 V c 2 t) (iblk1 V c 3 t) (iblk1 V c 4 t) (iblk1 V c 5 t) (ix2 p q)
      = lin1 (V c main_v10) (V c main_v19) (V c main_arg2) (V c main_v1) (V c main_v4) (V c main_arg3)
          (((cfg1.win 6).blk t).view.emb (ix2 p q))
  rw [emb6 t p q]
  by_cases hlt : q.val < 512
  · rw [out_left _ _ _ _ _ _ p q hlt,
      lin1_left _ _ _ _ _ _ (ix2 (rowOf t p) q) (rowOf t p) (⟨q.val, hlt⟩ : Fin 512) rfl rfl, blk4, blk5]
    unfold affAt
    refine congrArg₂ (· - ·) (congrArg₂ (· + ·) (Finset.sum_congr rfl fun k _ => ?_) rfl) rfl
    rw [blk0, blk1, blk2, blk3]
    rfl
  · have hq : q.val = 512 + (q.val - 512) := by omega
    rw [out_right _ _ _ _ _ _ p q hlt,
      lin1_right _ _ _ _ _ _ (ix2 (rowOf t p) q) (rowOf t p) (⟨q.val - 512, by have := q.isLt; omega⟩ : Fin 512) rfl hq,
      blk4, blk5]
    unfold affAt
    refine congrArg₂ (· - ·) (congrArg₂ max (congrArg₂ (· + ·) (Finset.sum_congr rfl fun k _ => ?_) rfl) rfl) rfl
    rw [blk0, blk1, blk2, blk3]
    rfl

/-- An entry of the array is in point `t`'s block iff each coordinate is in the block's range on its axis. -/
theorem mem_blk (t : Fin cfg1.N) (i : S25000x1024.Idx) :
    i ∈ ((cfg1.win 6).blk t).view.set ↔ ∀ a : Fin 2, win1_6.index t a * S1000x1024.size a ≤ (i a).val
      ∧ (i a).val < win1_6.index t a * S1000x1024.size a + S1000x1024.size a := by
  show i ∈ ((View.whole main_v20).slice (win1_6.rect t)).set ↔ _
  rw [View.set_slice_whole, Rect.mem_set_unit]
  exact Iff.rfl

/-- Every entry of the array is in some point's block: row `r` is in the block of point `r / 1000`. -/
theorem cover (i : S25000x1024.Idx) :
    ∃ t : Fin cfg1.N, (cfg1.win 6).flush t = true ∧ i ∈ ((cfg1.win 6).blk t).view.set := by
  have hi0 : (i 0).val < 25000 := (i 0).isLt
  have hi1 : (i 1).val < 1024 := (i 1).isLt
  have hN : cfg1.N = 25 := N_1
  obtain ⟨t, ht⟩ : ∃ t : Fin cfg1.N, t.val = (i 0).val / 1000 := ⟨⟨(i 0).val / 1000, by omega⟩, rfl⟩
  obtain ⟨-, -, -, -, -, -, -, -, -, -, -, -, e60, e61⟩ := idx_facts t
  refine ⟨t, flush1_6 t, ?_⟩
  rw [mem_blk]
  intro a
  match a with
  | ⟨0, _⟩ =>
    show win1_6.index t (0 : Fin 2) * 1000 ≤ (i 0).val ∧ (i 0).val < win1_6.index t (0 : Fin 2) * 1000 + 1000
    omega
  | ⟨1, _⟩ =>
    show win1_6.index t (1 : Fin 2) * 1024 ≤ (i 1).val ∧ (i 1).val < win1_6.index t (1 : Fin 2) * 1024 + 1024
    omega

/-- After region 1 its output array holds layer 1 of the arrays the region found: rows in blocks of 1000, the affine map of the
    mean aggregate in the left 512 columns and its rectified copy in the right 512, each minus its history columns. -/
theorem value (c : Dev nD) :
    (dat1 (F := Ideal) V c).arrAt 6 cfg1.N
      = lin1 (V c main_v10) (V c main_v19) (V c main_arg2) (V c main_v1) (V c main_v4) (V c main_arg3) := by
  exact (dat1 (F := Ideal) V c).arrAt_eq_of_cover 6
    (lin1 (V c main_v10) (V c main_v19) (V c main_arg2) (V c main_v1) (V c main_v4) (V c main_arg3))
    (fun t _ => flushed_eq V c t) cover

end Cert.Gcn.K1

end
-- ==== Proof.Layer2Kernel.lean ====
/-
  Layer 2 of the kernel, read off its pipeline: what the region's write-backs leave in the output array, as one function of
  the arrays the region finds.
-/
import proofs.«410037_j18141941859035_2_alg».proof.Proof.Gen.KernelIdeal.Frame
import proofs.«410037_j18141941859035_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.K2

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer rectangle, as the constant function. -/
theorem zero_offsets : (![0, 0] : Fin 2 → Nat) = fun _ => 0 := funext fun a => by fin_cases a <;> rfl

/-- A column `[a, 1]` broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction of the body's product, axis by axis -/

theorem lhs_dot_0 (i : S1000x64.Idx) (q : dot_S1000x1024_S1024x64_S1000x64_1_0_0_1_n_n.contr.Idx) :
    (dot_S1000x1024_S1024x64_S1000x64_1_0_0_1_n_n.lhsIdx i q 0).val = (i 0).val := by
  unfold DotDims.lhsIdx
  rw [dif_neg (show ¬(0 : Fin S1000x1024.rank) ∈ dot_S1000x1024_S1024x64_S1000x64_1_0_0_1_n_n.lhsBatch by decide), dif_pos (show (0 : Fin S1000x1024.rank) ∈ dot_S1000x1024_S1024x64_S1000x64_1_0_0_1_n_n.lhsNonContracting by decide)]
  rfl
theorem lhs_dot_1 (i : S1000x64.Idx) (q : dot_S1000x1024_S1024x64_S1000x64_1_0_0_1_n_n.contr.Idx) :
    (dot_S1000x1024_S1024x64_S1000x64_1_0_0_1_n_n.lhsIdx i q 1).val = (q ⟨0, by decide⟩).val :=
  dot_S1000x1024_S1024x64_S1000x64_1_0_0_1_n_n.lhsIdx_val_of_single rfl i q
theorem rhs_dot_0 (i : S1000x64.Idx) (q : dot_S1000x1024_S1024x64_S1000x64_1_0_0_1_n_n.contr.Idx) :
    (dot_S1000x1024_S1024x64_S1000x64_1_0_0_1_n_n.rhsIdx i q 0).val = (q ⟨0, by decide⟩).val :=
  dot_S1000x1024_S1024x64_S1000x64_1_0_0_1_n_n.rhsIdx_val_of_single rfl i q
theorem rhs_dot_1 (i : S1000x64.Idx) (q : dot_S1000x1024_S1024x64_S1000x64_1_0_0_1_n_n.contr.Idx) :
    (dot_S1000x1024_S1024x64_S1000x64_1_0_0_1_n_n.rhsIdx i q 1).val = (i 1).val := by
  unfold DotDims.rhsIdx
  rw [dif_neg (show ¬(1 : Fin S1024x64.rank) ∈ dot_S1000x1024_S1024x64_S1000x64_1_0_0_1_n_n.rhsBatch by decide), dif_pos (show (1 : Fin S1024x64.rank) ∈ dot_S1000x1024_S1024x64_S1000x64_1_0_0_1_n_n.rhsNonContracting by decide)]
  rfl

/-- The body's product into the zero accumulator, read at `(p, q)`: row `p` of the left factor against column `q` of
    the right one. -/
theorem matmul_at (L : FVec Ideal S1000x1024 .bf16) (R : FVec Ideal S1024x64 .bf16) (p : Fin 1000) (q : Fin 64) :
    matmul dot_S1000x1024_S1024x64_S1000x64_1_0_0_1_n_n none L R (constant S1000x64 .f32 0x00000000#32) (ix2 p q)
      = ∑ k : Fin 1024, L (ix2 p k) * R (ix2 k q) := by
  simp only [matmul]
  rw [Ideal.matmul_constant_zero_apply, ← Equiv.sum_comp (contrEquiv1 dot_S1000x1024_S1024x64_S1000x64_1_0_0_1_n_n 1024 rfl rfl).symm]
  refine Finset.sum_congr rfl fun k _ => ?_
  have hk := contrEquiv1_symm_val dot_S1000x1024_S1024x64_S1000x64_1_0_0_1_n_n 1024 rfl rfl k
  have el : dot_S1000x1024_S1024x64_S1000x64_1_0_0_1_n_n.lhsIdx (ix2 p q) ((contrEquiv1 dot_S1000x1024_S1024x64_S1000x64_1_0_0_1_n_n 1024 rfl rfl).symm k) = ix2 p k := funext fun a => Fin.ext (by
    match a with
    | ⟨0, _⟩ => exact lhs_dot_0 _ _
    | ⟨1, _⟩ => exact (lhs_dot_1 _ _).trans hk)
  have er : dot_S1000x1024_S1024x64_S1000x64_1_0_0_1_n_n.rhsIdx (ix2 p q) ((contrEquiv1 dot_S1000x1024_S1024x64_S1000x64_1_0_0_1_n_n 1024 rfl rfl).symm k) = ix2 k q := funext fun a => Fin.ext (by
    match a with
    | ⟨0, _⟩ => exact (rhs_dot_0 _ _).trans hk
    | ⟨1, _⟩ => exact rhs_dot_1 _ _)
  rw [el, er]

/-- The body's payload at `(p, q)` of its loaded blocks: the affine map of the mean aggregate, entry by entry. -/
theorem pay_at (x0 : Vec Ideal S1000x1024 .f32) (x1 : Vec Ideal S1000x1 .f32) (x2 : Vec Ideal S1000x1024 .f32)
    (x3 : Vec Ideal S1024x64 .f32) (x4 : Vec Ideal S1x64 .f32) (p : Fin 1000) (q : Fin 64) :
    k2_pay1 x0 x1 x2 x3 x4 (ix2 p q)
      = (∑ k : Fin 1024, (x0 (ix2 p k) * x1 (ix2 p (0 : Fin 1)) + x2 (ix2 p k)) * x3 (ix2 k q)) + x4 (ix2 (0 : Fin 1) q) := by
  unfold k2_pay1
  simp only [shapeCast_self]
  rw [addf_apply, matmul_at, broadcastTo_1b_ab_apply]
  refine congrArg (· + x4 (ix2 (0 : Fin 1) q)) (Finset.sum_congr rfl fun k _ => ?_)
  rw [truncf_apply, truncf_apply, addf_apply, mulf_apply, broadcastTo_a1_ab_apply]

/-! ## The blocks, read where the grid point says -/

/-- The printed index maps over the grid: the row-blocked windows sit at block `t`, the whole-array windows at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of block `t` is row `1000 t + p` of the array. -/
def rowOf (t : Fin cfg2.N) (p : Fin 1000) : Fin 5000 :=
  ⟨t.val * 1000 + p.val, by have := t.isLt; have hN : cfg2.N = 5 := N_2; have := p.isLt; omega⟩

theorem blk0_at (c : Dev nD) (t : Fin cfg2.N) (p : Fin 1000) (k : Fin 1024) :
    (iblk2 (F := Ideal) V c 0 t : Vec Ideal S1000x1024 .f32) (ix2 p k) = (V c main_v24 : Mat 5000 1024) (ix2 (rowOf t p) k) := by
  obtain ⟨e0, e1, -⟩ := idx_facts t
  unfold iblk2
  show V c main_v24 (((cfg2.win 0).blk t).view.emb (ix2 p k)) = V c main_v24 (ix2 (rowOf t p) k)
  refine congrArg (V c main_v24) (funext fun a => Fin.ext ?_)
  match a with
  | ⟨0, _⟩ => show win2_0.index t (0 : Fin 2) * 1000 + 1 * p.val = t.val * 1000 + p.val; omega
  | ⟨1, _⟩ => show win2_0.index t (1 : Fin 2) * 1024 + 1 * k.val = k.val; omega

theorem blk1_at (c : Dev nD) (t : Fin cfg2.N) (p : Fin 1000) :
    (iblk2 (F := Ideal) V c 1 t : Vec Ideal S1000x1 .f32) (ix2 p (0 : Fin 1)) = (V c main_v33 : Mat 5000 1) (ix2 (rowOf t p) (0 : Fin 1)) := by
  obtain ⟨-, -, e0, e1, -⟩ := idx_facts t
  unfold iblk2
  show V c main_v33 (((cfg2.win 1).blk t).view.emb (ix2 p (0 : Fin 1))) = V c main_v33 (ix2 (rowOf t p) (0 : Fin 1))
  refine congrArg (V c main_v33) (funext fun a => Fin.ext ?_)
  match a with
  | ⟨0, _⟩ => show win2_1.index t (0 : Fin 2) * 1000 + 1 * p.val = t.val * 1000 + p.val; omega
  | ⟨1, _⟩ => show win2_1.index t (1 : Fin 2) * 1 + 1 * 0 = 0; omega

theorem blk2_at (c : Dev nD) (t : Fin cfg2.N) (p : Fin 1000) (k : Fin 1024) :
    (iblk2 (F := Ideal) V c 2 t : Vec Ideal S1000x1024 .f32) (ix2 p k) = (V c main_arg4 : Mat 5000 1024) (ix2 (rowOf t p) k) := by
  obtain ⟨-, -, -, -, e0, e1, -⟩ := idx_facts t
  unfold iblk2
  show V c main_arg4 (((cfg2.win 2).blk t).view.emb (ix2 p k)) = V c main_arg4 (ix2 (rowOf t p) k)
  refine congrArg (V c main_arg4) (funext fun a => Fin.ext ?_)
  match a with
  | ⟨0, _⟩ => show win2_2.index t (0 : Fin 2) * 1000 + 1 * p.val = t.val * 1000 + p.val; omega
  | ⟨1, _⟩ => show win2_2.index t (1 : Fin 2) * 1024 + 1 * k.val = k.val; omega

theorem blk3_at (c : Dev nD) (t : Fin cfg2.N) (k : Fin 1024) (q : Fin 64) :
    (iblk2 (F := Ideal) V c 3 t : Vec Ideal S1024x64 .f32) (ix2 k q) = (V c main_v2 : Mat 1024 64) (ix2 k q) := by
  obtain ⟨-, -, -, -, -, -, e0, e1, -⟩ := idx_facts t
  unfold iblk2
  show V c main_v2 (((cfg2.win 3).blk t).view.emb (ix2 k q)) = V c main_v2 (ix2 k q)
  refine congrArg (V c main_v2) (funext fun a => Fin.ext ?_)
  match a with
  | ⟨0, _⟩ => show win2_3.index t (0 : Fin 2) * 1024 + 1 * k.val = k.val; omega
  | ⟨1, _⟩ => show win2_3.index t (1 : Fin 2) * 64 + 1 * q.val = q.val; omega

theorem blk4_at (c : Dev nD) (t : Fin cfg2.N) (q : Fin 64) :
    (iblk2 (F := Ideal) V c 4 t : Vec Ideal S1x64 .f32) (ix2 (0 : Fin 1) q) = (V c main_v5 : Mat 1 64) (ix2 (0 : Fin 1) q) := by
  obtain ⟨-, -, -, -, -, -, -, -, e0, e1, -⟩ := idx_facts t
  unfold iblk2
  show V c main_v5 (((cfg2.win 4).blk t).view.emb (ix2 (0 : Fin 1) q)) = V c main_v5 (ix2 (0 : Fin 1) q)
  refine congrArg (V c main_v5) (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

/-! ## What a grid point writes back, and the cover -/

/-- Grid point `t` writes back block `t` of layer 2 of the arrays the region found. -/
theorem flushed_eq (c : Dev nD) (t : Fin cfg2.N) :
    (dat2 (F := Ideal) V c).flushed 5 t
      = ((cfg2.win 5).blk t).view.read (Elt Ideal)
          (lin2 (V c main_v24) (V c main_v33) (V c main_arg4) (V c main_v2) (V c main_v5)) := by
  show (cfg2.win 5).cut (grid2.coords t) ((dat2 V c).after 5 t) = _
  rw [after2_5]
  unfold out2_5
  rw [View.canon_unit_zero zero_offsets]
  simp only [View.ld_unit_zero (S := S1000x1024) zero_offsets, View.ld_unit_zero (S := S1000x1) zero_offsets,
    View.ld_unit_zero (S := S1024x64) zero_offsets, View.ld_unit_zero (S := S1x64) zero_offsets]
  obtain ⟨-, -, -, -, -, -, -, -, -, -, e0, e1⟩ := idx_facts t
  funext j
  obtain ⟨p, q, rfl⟩ : ∃ (p : Fin 1000) (q : Fin 64), j = ix2 p q := ⟨j 0, j 1, eq_ix2 j⟩
  show k2_pay1 (iblk2 V c 0 t) (iblk2 V c 1 t) (iblk2 V c 2 t) (iblk2 V c 3 t) (iblk2 V c 4 t) (ix2 p q)
    = lin2 (V c main_v24) (V c main_v33) (V c main_arg4) (V c main_v2) (V c main_v5) (((cfg2.win 5).blk t).view.emb (ix2 p q))
  have hi : ((cfg2.win 5).blk t).view.emb (ix2 p q) = ix2 (rowOf t p) q := funext fun a => Fin.ext (by
    match a with
    | ⟨0, _⟩ => show win2_5.index t (0 : Fin 2) * 1000 + 1 * p.val = t.val * 1000 + p.val; omega
    | ⟨1, _⟩ => show win2_5.index t (1 : Fin 2) * 64 + 1 * q.val = q.val; omega)
  rw [hi]
  refine (pay_at _ _ _ _ _ p q).trans ?_
  show _ = affAt (agg (V c main_v24) (V c main_v33) (V c main_arg4)) (V c main_v2) (V c main_v5) (rowOf t p) q
  unfold affAt
  refine congr (congrArg _ (Finset.sum_congr rfl fun k _ => ?_)) (blk4_at V c t q)
  rw [blk0_at, blk1_at, blk2_at, blk3_at]
  rfl

/-- An index of the output array is in point `t`'s block iff each coordinate is in the block's range on its axis. -/
theorem mem_blk (t : Fin cfg2.N) (i : S5000x64.Idx) :
    i ∈ ((cfg2.win 5).blk t).view.set ↔ ∀ a : Fin 2, win2_5.index t a * S1000x64.size a ≤ (i a).val ∧ (i a).val < win2_5.index t a * S1000x64.size a + S1000x64.size a := by
  show i ∈ ((View.whole main_v34).slice (win2_5.rect t)).set ↔ _
  rw [View.set_slice_whole, Rect.mem_set_unit]
  exact Iff.rfl

/-- Row `r` of the output array is in the block of grid point `r / 1000`, which writes back. -/
theorem cover (i : S5000x64.Idx) :
    ∃ t : Fin cfg2.N, (cfg2.win 5).flush t = true ∧ i ∈ ((cfg2.win 5).blk t).view.set := by
  have hN : cfg2.N = 5 := N_2
  have hi0 : (i 0).val < 5000 := (i 0).isLt
  have hi1 : (i 1).val < 64 := (i 1).isLt
  obtain ⟨t, ht⟩ : ∃ t : Fin cfg2.N, t.val = (i 0).val / 1000 := ⟨⟨(i 0).val / 1000, by omega⟩, rfl⟩
  obtain ⟨-, -, -, -, -, -, -, -, -, -, e0, e1⟩ := idx_facts t
  refine ⟨t, flush2_5 t, ?_⟩
  rw [mem_blk]
  intro a
  match a with
  | ⟨0, _⟩ => show win2_5.index t (0 : Fin 2) * 1000 ≤ (i 0).val ∧ (i 0).val < win2_5.index t (0 : Fin 2) * 1000 + 1000; omega
  | ⟨1, _⟩ => show win2_5.index t (1 : Fin 2) * 64 ≤ (i 1).val ∧ (i 1).val < win2_5.index t (1 : Fin 2) * 64 + 64; omega

/-- After region 2 its output array holds layer 2 of the arrays the region found: rows in blocks of 1000, the affine map of
    the mean aggregate. -/
theorem value (c : Dev nD) :
    (dat2 (F := Ideal) V c).arrAt 5 cfg2.N
      = lin2 (V c main_v24) (V c main_v33) (V c main_arg4) (V c main_v2) (V c main_v5) :=
  (dat2 (F := Ideal) V c).arrAt_eq_of_cover 5
    (lin2 (V c main_v24) (V c main_v33) (V c main_arg4) (V c main_v2) (V c main_v5))
    (fun t _ => flushed_eq V c t) (fun i => cover i)

end Cert.Gcn.K2

end
-- ==== Proof.KernelChain.lean ====
/- The kernel's program from launch to return, as values: the contents of its result array after the third region, read back
  through the regions and the host stretches to the argument arrays.  Each region leaves its layer of the specification over
  the arrays it found; each host stretch between two regions takes rows along the edge sources, sums them per destination
  and inverts the clamped in-degrees; the first stretch transposes the three weight matrices and lays the biases out as rows.
-/
import proofs.«410037_j18141941859035_2_alg».proof.Proof.Gen.KernelIdeal.Frame
import proofs.«410037_j18141941859035_2_alg».proof.Proof.Spec
import proofs.«410037_j18141941859035_2_alg».proof.Proof.KernelHost
import proofs.«410037_j18141941859035_2_alg».proof.Proof.Layer0Kernel
import proofs.«410037_j18141941859035_2_alg».proof.Proof.Layer1Kernel
import proofs.«410037_j18141941859035_2_alg».proof.Proof.Layer2Kernel
import Idealize.ShloMosaic.Lib.StableHlo.Run

set_option maxRecDepth 16384

noncomputable section

namespace Cert.Gcn.KChain

open Cert.KernelIdeal Cert.KernelIdeal.Gen Cert.Gcn.KHost Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The three layers over the argument arrays -/

/-- Layer 0 of the launch contents: the node features through the first affine map and rectifier, minus their history. -/
def kH0 (c : Dev nD) : FVec Ideal S100000x512 .f32 :=
  lin0 (m ((c.tc : Thread nD τ).loc main_arg0)) (transpose S512x512 [1, 0] (m ((c.tc : Thread nD τ).loc main_arg5)) transposes_S512x512_S512x512_1_0) (shapeCast S1x512 (m ((c.tc : Thread nD τ).loc main_arg6)) shapeCasts_S512_S1x512) (m ((c.tc : Thread nD τ).loc main_arg1))

/-- Layer 1 of the launch contents: layer 0's rows summed along the first edge set, averaged, through the second affine map. -/
def kH1 (c : Dev nD) : FVec Ideal S25000x1024 .f32 :=
  lin1 (kScatter0 (kTake0 (kH0 m c) (m ((c.tc : Thread nD τ).loc main_arg11))) (m ((c.tc : Thread nD τ).loc main_arg12))) (kInv0 (m ((c.tc : Thread nD τ).loc main_arg12))) (m ((c.tc : Thread nD τ).loc main_arg2)) (transpose S512x512 [1, 0] (m ((c.tc : Thread nD τ).loc main_arg7)) transposes_S512x512_S512x512_1_0) (shapeCast S1x512 (m ((c.tc : Thread nD τ).loc main_arg8)) shapeCasts_S512_S1x512) (m ((c.tc : Thread nD τ).loc main_arg3))

/-- Layer 2 of the launch contents: layer 1's rows summed along the second edge set, averaged, through the third affine map. -/
def kOut (c : Dev nD) : FVec Ideal S5000x64 .f32 :=
  lin2 (kScatter1 (kTake1 (kH1 m c) (m ((c.tc : Thread nD τ).loc main_arg13))) (m ((c.tc : Thread nD τ).loc main_arg14))) (kInv1 (m ((c.tc : Thread nD τ).loc main_arg14))) (m ((c.tc : Thread nD τ).loc main_arg4)) (transpose S1024x64 [1, 0] (m ((c.tc : Thread nD τ).loc main_arg9)) transposes_S64x1024_S1024x64_1_0) (shapeCast S1x64 (m ((c.tc : Thread nD τ).loc main_arg10)) shapeCasts_S64_S1x64)

/-! ## After the first host stretch: the transposed weights, the bias rows, the arguments as launched -/

theorem w1_main_v0 (c : Dev nD) : W1 m ρ c (Proc.devRef .tc main_v0) = (transpose S512x512 [1, 0] (m ((c.tc : Thread nD τ).loc main_arg5)) transposes_S512x512_S512x512_1_0) := by
  show StableHlo.after hostOps0 (W0 m ρ c) (Proc.devRef .tc main_v0) = _
  after_results <;> rfl

theorem w1_main_v1 (c : Dev nD) : W1 m ρ c (Proc.devRef .tc main_v1) = (transpose S512x512 [1, 0] (m ((c.tc : Thread nD τ).loc main_arg7)) transposes_S512x512_S512x512_1_0) := by
  show StableHlo.after hostOps0 (W0 m ρ c) (Proc.devRef .tc main_v1) = _
  after_results <;> rfl

theorem w1_main_v2 (c : Dev nD) : W1 m ρ c (Proc.devRef .tc main_v2) = (transpose S1024x64 [1, 0] (m ((c.tc : Thread nD τ).loc main_arg9)) transposes_S64x1024_S1024x64_1_0) := by
  show StableHlo.after hostOps0 (W0 m ρ c) (Proc.devRef .tc main_v2) = _
  after_results <;> rfl

theorem w1_main_v3 (c : Dev nD) : W1 m ρ c (Proc.devRef .tc main_v3) = (shapeCast S1x512 (m ((c.tc : Thread nD τ).loc main_arg6)) shapeCasts_S512_S1x512) := by
  show StableHlo.after hostOps0 (W0 m ρ c) (Proc.devRef .tc main_v3) = _
  after_results <;> rfl

theorem w1_main_v4 (c : Dev nD) : W1 m ρ c (Proc.devRef .tc main_v4) = (shapeCast S1x512 (m ((c.tc : Thread nD τ).loc main_arg8)) shapeCasts_S512_S1x512) := by
  show StableHlo.after hostOps0 (W0 m ρ c) (Proc.devRef .tc main_v4) = _
  after_results <;> rfl

theorem w1_main_v5 (c : Dev nD) : W1 m ρ c (Proc.devRef .tc main_v5) = (shapeCast S1x64 (m ((c.tc : Thread nD τ).loc main_arg10)) shapeCasts_S64_S1x64) := by
  show StableHlo.after hostOps0 (W0 m ρ c) (Proc.devRef .tc main_v5) = _
  after_results <;> rfl

theorem w1_main_arg11 (c : Dev nD) : W1 m ρ c (Proc.devRef .tc main_arg11) = (m ((c.tc : Thread nD τ).loc main_arg11)) := by
  show StableHlo.after hostOps0 (W0 m ρ c) (Proc.devRef .tc main_arg11) = _
  after_results <;> rfl

theorem w1_main_arg12 (c : Dev nD) : W1 m ρ c (Proc.devRef .tc main_arg12) = (m ((c.tc : Thread nD τ).loc main_arg12)) := by
  show StableHlo.after hostOps0 (W0 m ρ c) (Proc.devRef .tc main_arg12) = _
  after_results <;> rfl

theorem w1_main_arg2 (c : Dev nD) : W1 m ρ c (Proc.devRef .tc main_arg2) = (m ((c.tc : Thread nD τ).loc main_arg2)) := by
  show StableHlo.after hostOps0 (W0 m ρ c) (Proc.devRef .tc main_arg2) = _
  after_results <;> rfl

theorem w1_main_arg3 (c : Dev nD) : W1 m ρ c (Proc.devRef .tc main_arg3) = (m ((c.tc : Thread nD τ).loc main_arg3)) := by
  show StableHlo.after hostOps0 (W0 m ρ c) (Proc.devRef .tc main_arg3) = _
  after_results <;> rfl

theorem w1_main_arg13 (c : Dev nD) : W1 m ρ c (Proc.devRef .tc main_arg13) = (m ((c.tc : Thread nD τ).loc main_arg13)) := by
  show StableHlo.after hostOps0 (W0 m ρ c) (Proc.devRef .tc main_arg13) = _
  after_results <;> rfl

theorem w1_main_arg14 (c : Dev nD) : W1 m ρ c (Proc.devRef .tc main_arg14) = (m ((c.tc : Thread nD τ).loc main_arg14)) := by
  show StableHlo.after hostOps0 (W0 m ρ c) (Proc.devRef .tc main_arg14) = _
  after_results <;> rfl

theorem w1_main_arg4 (c : Dev nD) : W1 m ρ c (Proc.devRef .tc main_arg4) = (m ((c.tc : Thread nD τ).loc main_arg4)) := by
  show StableHlo.after hostOps0 (W0 m ρ c) (Proc.devRef .tc main_arg4) = _
  after_results <;> rfl

theorem w1_main_arg0 (c : Dev nD) : W1 m ρ c (Proc.devRef .tc main_arg0) = (m ((c.tc : Thread nD τ).loc main_arg0)) := by
  show StableHlo.after hostOps0 (W0 m ρ c) (Proc.devRef .tc main_arg0) = _
  after_results <;> rfl

theorem w1_main_arg1 (c : Dev nD) : W1 m ρ c (Proc.devRef .tc main_arg1) = (m ((c.tc : Thread nD τ).loc main_arg1)) := by
  show StableHlo.after hostOps0 (W0 m ρ c) (Proc.devRef .tc main_arg1) = _
  after_results <;> rfl

/-! ## After region 0: its output array is layer 0; nothing else moved -/

theorem w2_main_v6 (c : Dev nD) : W2 m ρ c (Proc.devRef .tc main_v6) = kH0 m c := by
  refine (W2_arr m ρ c 4).trans ?_
  refine (Cert.Gcn.K0.value (V1 m ρ) c).trans ?_
  show lin0 (W1 m ρ c (Proc.devRef .tc main_arg0)) (W1 m ρ c (Proc.devRef .tc main_v0)) (W1 m ρ c (Proc.devRef .tc main_v3)) (W1 m ρ c (Proc.devRef .tc main_arg1)) = _
  rw [w1_main_arg0, w1_main_v0, w1_main_v3, w1_main_arg1]
  rfl

theorem w2_main_arg11 (c : Dev nD) : W2 m ρ c (Proc.devRef .tc main_arg11) = (m ((c.tc : Thread nD τ).loc main_arg11)) :=
  (W2_of_ne m ρ c main_arg11 (by decide)).trans (w1_main_arg11 m ρ c)

theorem w2_main_arg12 (c : Dev nD) : W2 m ρ c (Proc.devRef .tc main_arg12) = (m ((c.tc : Thread nD τ).loc main_arg12)) :=
  (W2_of_ne m ρ c main_arg12 (by decide)).trans (w1_main_arg12 m ρ c)

theorem w2_main_arg2 (c : Dev nD) : W2 m ρ c (Proc.devRef .tc main_arg2) = (m ((c.tc : Thread nD τ).loc main_arg2)) :=
  (W2_of_ne m ρ c main_arg2 (by decide)).trans (w1_main_arg2 m ρ c)

theorem w2_main_v1 (c : Dev nD) : W2 m ρ c (Proc.devRef .tc main_v1) = (transpose S512x512 [1, 0] (m ((c.tc : Thread nD τ).loc main_arg7)) transposes_S512x512_S512x512_1_0) :=
  (W2_of_ne m ρ c main_v1 (by decide)).trans (w1_main_v1 m ρ c)

theorem w2_main_v4 (c : Dev nD) : W2 m ρ c (Proc.devRef .tc main_v4) = (shapeCast S1x512 (m ((c.tc : Thread nD τ).loc main_arg8)) shapeCasts_S512_S1x512) :=
  (W2_of_ne m ρ c main_v4 (by decide)).trans (w1_main_v4 m ρ c)

theorem w2_main_arg3 (c : Dev nD) : W2 m ρ c (Proc.devRef .tc main_arg3) = (m ((c.tc : Thread nD τ).loc main_arg3)) :=
  (W2_of_ne m ρ c main_arg3 (by decide)).trans (w1_main_arg3 m ρ c)

theorem w2_main_arg13 (c : Dev nD) : W2 m ρ c (Proc.devRef .tc main_arg13) = (m ((c.tc : Thread nD τ).loc main_arg13)) :=
  (W2_of_ne m ρ c main_arg13 (by decide)).trans (w1_main_arg13 m ρ c)

theorem w2_main_arg14 (c : Dev nD) : W2 m ρ c (Proc.devRef .tc main_arg14) = (m ((c.tc : Thread nD τ).loc main_arg14)) :=
  (W2_of_ne m ρ c main_arg14 (by decide)).trans (w1_main_arg14 m ρ c)

theorem w2_main_arg4 (c : Dev nD) : W2 m ρ c (Proc.devRef .tc main_arg4) = (m ((c.tc : Thread nD τ).loc main_arg4)) :=
  (W2_of_ne m ρ c main_arg4 (by decide)).trans (w1_main_arg4 m ρ c)

theorem w2_main_v2 (c : Dev nD) : W2 m ρ c (Proc.devRef .tc main_v2) = (transpose S1024x64 [1, 0] (m ((c.tc : Thread nD τ).loc main_arg9)) transposes_S64x1024_S1024x64_1_0) :=
  (W2_of_ne m ρ c main_v2 (by decide)).trans (w1_main_v2 m ρ c)

theorem w2_main_v5 (c : Dev nD) : W2 m ρ c (Proc.devRef .tc main_v5) = (shapeCast S1x64 (m ((c.tc : Thread nD τ).loc main_arg10)) shapeCasts_S64_S1x64) :=
  (W2_of_ne m ρ c main_v5 (by decide)).trans (w1_main_v5 m ρ c)

/-! ## After the second and third host stretches: the segment sums and reciprocal degrees of the first edge set -/

theorem w4_main_v10 (c : Dev nD) : W4 m ρ c (Proc.devRef .tc main_v10) = kScatter0 (kTake0 (kH0 m c) (m ((c.tc : Thread nD τ).loc main_arg11))) (m ((c.tc : Thread nD τ).loc main_arg12)) := by
  have e : W4 m ρ c (Proc.devRef .tc main_v10)
      = kScatter0 (kTake0 (W2 m ρ c (Proc.devRef .tc main_v6)) (W2 m ρ c (Proc.devRef .tc main_arg11))) (W2 m ρ c (Proc.devRef .tc main_arg12)) := by
    show StableHlo.after hostOps1_1 (StableHlo.after hostOps1 (W2 m ρ c)) (Proc.devRef .tc main_v10) = _
    after_results_simp
    unfold kScatter0 kTake0 kMask0 kIdx0
    simp only [TRef.ofBuf, TRef.toBuf, cast_eq]
  rw [e, w2_main_v6, w2_main_arg11, w2_main_arg12]

theorem w4_main_v19 (c : Dev nD) : W4 m ρ c (Proc.devRef .tc main_v19) = kInv0 (m ((c.tc : Thread nD τ).loc main_arg12)) := by
  have e : W4 m ρ c (Proc.devRef .tc main_v19) = kInv0 (W2 m ρ c (Proc.devRef .tc main_arg12)) := by
    show StableHlo.after hostOps1_1 (StableHlo.after hostOps1 (W2 m ρ c)) (Proc.devRef .tc main_v19) = _
    after_results_simp <;> rfl
  rw [e, w2_main_arg12]

theorem w4_main_arg2 (c : Dev nD) : W4 m ρ c (Proc.devRef .tc main_arg2) = (m ((c.tc : Thread nD τ).loc main_arg2)) := by
  have e : W4 m ρ c (Proc.devRef .tc main_arg2) = W2 m ρ c (Proc.devRef .tc main_arg2) := by
    show StableHlo.after hostOps1_1 (StableHlo.after hostOps1 (W2 m ρ c)) (Proc.devRef .tc main_arg2) = _
    after_results_simp <;> rfl
  rw [e, w2_main_arg2]

theorem w4_main_v1 (c : Dev nD) : W4 m ρ c (Proc.devRef .tc main_v1) = (transpose S512x512 [1, 0] (m ((c.tc : Thread nD τ).loc main_arg7)) transposes_S512x512_S512x512_1_0) := by
  have e : W4 m ρ c (Proc.devRef .tc main_v1) = W2 m ρ c (Proc.devRef .tc main_v1) := by
    show StableHlo.after hostOps1_1 (StableHlo.after hostOps1 (W2 m ρ c)) (Proc.devRef .tc main_v1) = _
    after_results_simp <;> rfl
  rw [e, w2_main_v1]

theorem w4_main_v4 (c : Dev nD) : W4 m ρ c (Proc.devRef .tc main_v4) = (shapeCast S1x512 (m ((c.tc : Thread nD τ).loc main_arg8)) shapeCasts_S512_S1x512) := by
  have e : W4 m ρ c (Proc.devRef .tc main_v4) = W2 m ρ c (Proc.devRef .tc main_v4) := by
    show StableHlo.after hostOps1_1 (StableHlo.after hostOps1 (W2 m ρ c)) (Proc.devRef .tc main_v4) = _
    after_results_simp <;> rfl
  rw [e, w2_main_v4]

theorem w4_main_arg3 (c : Dev nD) : W4 m ρ c (Proc.devRef .tc main_arg3) = (m ((c.tc : Thread nD τ).loc main_arg3)) := by
  have e : W4 m ρ c (Proc.devRef .tc main_arg3) = W2 m ρ c (Proc.devRef .tc main_arg3) := by
    show StableHlo.after hostOps1_1 (StableHlo.after hostOps1 (W2 m ρ c)) (Proc.devRef .tc main_arg3) = _
    after_results_simp <;> rfl
  rw [e, w2_main_arg3]

theorem w4_main_arg13 (c : Dev nD) : W4 m ρ c (Proc.devRef .tc main_arg13) = (m ((c.tc : Thread nD τ).loc main_arg13)) := by
  have e : W4 m ρ c (Proc.devRef .tc main_arg13) = W2 m ρ c (Proc.devRef .tc main_arg13) := by
    show StableHlo.after hostOps1_1 (StableHlo.after hostOps1 (W2 m ρ c)) (Proc.devRef .tc main_arg13) = _
    after_results_simp <;> rfl
  rw [e, w2_main_arg13]

theorem w4_main_arg14 (c : Dev nD) : W4 m ρ c (Proc.devRef .tc main_arg14) = (m ((c.tc : Thread nD τ).loc main_arg14)) := by
  have e : W4 m ρ c (Proc.devRef .tc main_arg14) = W2 m ρ c (Proc.devRef .tc main_arg14) := by
    show StableHlo.after hostOps1_1 (StableHlo.after hostOps1 (W2 m ρ c)) (Proc.devRef .tc main_arg14) = _
    after_results_simp <;> rfl
  rw [e, w2_main_arg14]

theorem w4_main_arg4 (c : Dev nD) : W4 m ρ c (Proc.devRef .tc main_arg4) = (m ((c.tc : Thread nD τ).loc main_arg4)) := by
  have e : W4 m ρ c (Proc.devRef .tc main_arg4) = W2 m ρ c (Proc.devRef .tc main_arg4) := by
    show StableHlo.after hostOps1_1 (StableHlo.after hostOps1 (W2 m ρ c)) (Proc.devRef .tc main_arg4) = _
    after_results_simp <;> rfl
  rw [e, w2_main_arg4]

theorem w4_main_v2 (c : Dev nD) : W4 m ρ c (Proc.devRef .tc main_v2) = (transpose S1024x64 [1, 0] (m ((c.tc : Thread nD τ).loc main_arg9)) transposes_S64x1024_S1024x64_1_0) := by
  have e : W4 m ρ c (Proc.devRef .tc main_v2) = W2 m ρ c (Proc.devRef .tc main_v2) := by
    show StableHlo.after hostOps1_1 (StableHlo.after hostOps1 (W2 m ρ c)) (Proc.devRef .tc main_v2) = _
    after_results_simp <;> rfl
  rw [e, w2_main_v2]

theorem w4_main_v5 (c : Dev nD) : W4 m ρ c (Proc.devRef .tc main_v5) = (shapeCast S1x64 (m ((c.tc : Thread nD τ).loc main_arg10)) shapeCasts_S64_S1x64) := by
  have e : W4 m ρ c (Proc.devRef .tc main_v5) = W2 m ρ c (Proc.devRef .tc main_v5) := by
    show StableHlo.after hostOps1_1 (StableHlo.after hostOps1 (W2 m ρ c)) (Proc.devRef .tc main_v5) = _
    after_results_simp <;> rfl
  rw [e, w2_main_v5]

/-! ## After region 1: its output array is layer 1; nothing else moved -/

theorem w5_main_v20 (c : Dev nD) : W5 m ρ c (Proc.devRef .tc main_v20) = kH1 m c := by
  refine (W5_arr m ρ c 6).trans ?_
  refine (Cert.Gcn.K1.value (V4 m ρ) c).trans ?_
  show lin1 (W4 m ρ c (Proc.devRef .tc main_v10)) (W4 m ρ c (Proc.devRef .tc main_v19)) (W4 m ρ c (Proc.devRef .tc main_arg2)) (W4 m ρ c (Proc.devRef .tc main_v1))
    (W4 m ρ c (Proc.devRef .tc main_v4)) (W4 m ρ c (Proc.devRef .tc main_arg3)) = _
  rw [w4_main_v10, w4_main_v19, w4_main_arg2, w4_main_v1, w4_main_v4, w4_main_arg3]
  rfl

theorem w5_main_arg13 (c : Dev nD) : W5 m ρ c (Proc.devRef .tc main_arg13) = (m ((c.tc : Thread nD τ).loc main_arg13)) :=
  (W5_of_ne m ρ c main_arg13 (by decide)).trans (w4_main_arg13 m ρ c)

theorem w5_main_arg14 (c : Dev nD) : W5 m ρ c (Proc.devRef .tc main_arg14) = (m ((c.tc : Thread nD τ).loc main_arg14)) :=
  (W5_of_ne m ρ c main_arg14 (by decide)).trans (w4_main_arg14 m ρ c)

theorem w5_main_arg4 (c : Dev nD) : W5 m ρ c (Proc.devRef .tc main_arg4) = (m ((c.tc : Thread nD τ).loc main_arg4)) :=
  (W5_of_ne m ρ c main_arg4 (by decide)).trans (w4_main_arg4 m ρ c)

theorem w5_main_v2 (c : Dev nD) : W5 m ρ c (Proc.devRef .tc main_v2) = (transpose S1024x64 [1, 0] (m ((c.tc : Thread nD τ).loc main_arg9)) transposes_S64x1024_S1024x64_1_0) :=
  (W5_of_ne m ρ c main_v2 (by decide)).trans (w4_main_v2 m ρ c)

theorem w5_main_v5 (c : Dev nD) : W5 m ρ c (Proc.devRef .tc main_v5) = (shapeCast S1x64 (m ((c.tc : Thread nD τ).loc main_arg10)) shapeCasts_S64_S1x64) :=
  (W5_of_ne m ρ c main_v5 (by decide)).trans (w4_main_v5 m ρ c)

/-! ## After the fourth and fifth host stretches: the segment sums and reciprocal degrees of the second edge set -/

theorem w7_main_v24 (c : Dev nD) : W7 m ρ c (Proc.devRef .tc main_v24) = kScatter1 (kTake1 (kH1 m c) (m ((c.tc : Thread nD τ).loc main_arg13))) (m ((c.tc : Thread nD τ).loc main_arg14)) := by
  have e : W7 m ρ c (Proc.devRef .tc main_v24)
      = kScatter1 (kTake1 (W5 m ρ c (Proc.devRef .tc main_v20)) (W5 m ρ c (Proc.devRef .tc main_arg13))) (W5 m ρ c (Proc.devRef .tc main_arg14)) := by
    show StableHlo.after hostOps2_1 (StableHlo.after hostOps2 (W5 m ρ c)) (Proc.devRef .tc main_v24) = _
    after_results_simp
    unfold kScatter1 kTake1 kMask1 kIdx1
    simp only [TRef.ofBuf, TRef.toBuf, cast_eq]
  rw [e, w5_main_v20, w5_main_arg13, w5_main_arg14]

theorem w7_main_v33 (c : Dev nD) : W7 m ρ c (Proc.devRef .tc main_v33) = kInv1 (m ((c.tc : Thread nD τ).loc main_arg14)) := by
  have e : W7 m ρ c (Proc.devRef .tc main_v33) = kInv1 (W5 m ρ c (Proc.devRef .tc main_arg14)) := by
    show StableHlo.after hostOps2_1 (StableHlo.after hostOps2 (W5 m ρ c)) (Proc.devRef .tc main_v33) = _
    after_results_simp <;> rfl
  rw [e, w5_main_arg14]

theorem w7_main_arg4 (c : Dev nD) : W7 m ρ c (Proc.devRef .tc main_arg4) = (m ((c.tc : Thread nD τ).loc main_arg4)) := by
  have e : W7 m ρ c (Proc.devRef .tc main_arg4) = W5 m ρ c (Proc.devRef .tc main_arg4) := by
    show StableHlo.after hostOps2_1 (StableHlo.after hostOps2 (W5 m ρ c)) (Proc.devRef .tc main_arg4) = _
    after_results_simp <;> rfl
  rw [e, w5_main_arg4]

theorem w7_main_v2 (c : Dev nD) : W7 m ρ c (Proc.devRef .tc main_v2) = (transpose S1024x64 [1, 0] (m ((c.tc : Thread nD τ).loc main_arg9)) transposes_S64x1024_S1024x64_1_0) := by
  have e : W7 m ρ c (Proc.devRef .tc main_v2) = W5 m ρ c (Proc.devRef .tc main_v2) := by
    show StableHlo.after hostOps2_1 (StableHlo.after hostOps2 (W5 m ρ c)) (Proc.devRef .tc main_v2) = _
    after_results_simp <;> rfl
  rw [e, w5_main_v2]

theorem w7_main_v5 (c : Dev nD) : W7 m ρ c (Proc.devRef .tc main_v5) = (shapeCast S1x64 (m ((c.tc : Thread nD τ).loc main_arg10)) shapeCasts_S64_S1x64) := by
  have e : W7 m ρ c (Proc.devRef .tc main_v5) = W5 m ρ c (Proc.devRef .tc main_v5) := by
    show StableHlo.after hostOps2_1 (StableHlo.after hostOps2 (W5 m ρ c)) (Proc.devRef .tc main_v5) = _
    after_results_simp <;> rfl
  rw [e, w5_main_v5]

/-! ## After region 2: the result array is layer 2 -/

/-- The result array at the program's last boundary is the three layers composed over the argument arrays. -/
theorem result (c : Dev nD) : W8 m ρ c (Proc.devRef .tc main_v34) = kOut m c := by
  refine (W8_arr m ρ c 5).trans ?_
  refine (Cert.Gcn.K2.value (V7 m ρ) c).trans ?_
  show lin2 (W7 m ρ c (Proc.devRef .tc main_v24)) (W7 m ρ c (Proc.devRef .tc main_v33)) (W7 m ρ c (Proc.devRef .tc main_arg4)) (W7 m ρ c (Proc.devRef .tc main_v2))
    (W7 m ρ c (Proc.devRef .tc main_v5)) = _
  rw [w7_main_v24, w7_main_v33, w7_main_arg4, w7_main_v2, w7_main_v5]
  rfl

end Cert.Gcn.KChain

end
-- ==== Proof.SourceRange.lean ====
/-
  The source indices are in range, and what that buys: the precondition says every edge's source index is a row of the array
  it indexes; then the range test the kernel's program makes before it takes a row is true at every edge, and the rows it
  takes are the gathered rows.
-/
import proofs.«410037_j18141941859035_2_alg».proof.Defs
import proofs.«410037_j18141941859035_2_alg».proof.Proof.Gen.Pre_finite_inputs
import proofs.«410037_j18141941859035_2_alg».proof.Proof.KernelHost
import Idealize.ShloMosaic.Lib.ReduceAll
import Idealize.ShloMosaic.Lib.StableHlo.Predicate
import Idealize.ShloMosaic.Lib.ValueIdx

set_option maxRecDepth 16384

noncomputable section

namespace Cert.Gcn.SourceRange

open Cert.KernelIdeal Cert.KernelIdeal.Gen Cert.Gcn.KHost Idealize.ShloMosaic Idealize.ShloMosaic.TcCoe Idealize.SL.Sem

/-- Every word of an index vector lies in [0, N), read signed. -/
def InRange {S : Shape} (N : Nat) (src : IVec S 32) : Prop :=
  ∀ i, IntOp.cmpi .sge (src i) 0#32 = 1#1 ∧ IntOp.cmpi .slt (src i) (BitVec.ofNat 32 N) = 1#1

/-! ## Words -/

/-- A word that is not negative and lies below a small literal `N`: it is not below zero, and it is at most any literal
    `M` with `N ≤ M + 1`. All four comparisons read the words signed. -/
theorem word_in_range {N M : Nat} (hN : N < 2 ^ 31) (hM : M < 2 ^ 31) (hNM : N ≤ M + 1) {w : BitVec 32}
    (h0 : IntOp.cmpi .sge w 0#32 = 1#1) (h1 : IntOp.cmpi .slt w (BitVec.ofNat 32 N) = 1#1) :
    IntOp.cmpi .slt w 0#32 = 0#1 ∧ IntOp.cmpi .sle w (BitVec.ofNat 32 M) = 1#1 := by
  have z : (0#32 : BitVec 32).toInt = 0 := by decide
  rw [IntOp.cmpi_sge, z] at h0
  rw [IntOp.cmpi_slt, StableHlo.Predicate.toInt_ofNat_small N hN] at h1
  refine ⟨ValueIdx.eq_zero_of_ne_one (fun e => ?_), ?_⟩
  · rw [IntOp.cmpi_slt, z] at e; omega
  · rw [IntOp.cmpi_sle, StableHlo.Predicate.toInt_ofNat_small M hM]; omega

/-! ## A reduction by `and` of an array of ones -/

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hf => by
    refine foldl_andi_one f l _ ?_ (fun n hn => hf n (List.mem_cons_of_mem _ hn))
    show IntOp.andi init (f a) = 1#1
    rw [hi, hf a (List.mem_cons_self ..)]; decide

/-- A reduce by `and` from 1 of an array whose every element is 1 is 1 at every result index. -/
theorem reduce_andi_one {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl]
  exact foldl_andi_one x _ _ hi (fun i _ => hx i)

/-! ## The precondition -/

instance : Subsingleton Cert.Pre_finite_inputs.S_.Idx := ⟨fun a b => funext fun d => d.elim0⟩

/-- A conjunction of two one-bit arrays at an index. -/
theorem and_split {S : Shape} (x y : IVec S 1) (i : S.Idx) (e : andi x y i = 1#1) : x i = 1#1 ∧ y i = 1#1 :=
  IntOp.andi_eq_one.1 e

/-- The precondition, decoded: on every device both source-index arguments are in range of the arrays they index. -/
theorem of_pre (m : (ℓ : Loc nD τ sig) → Buf (Elt Ideal) ℓ) (h : Cert.Pre_KernelIdeal m) (c : Dev nD) :
    InRange 100000 (m ((c.tc : Thread nD τ).loc main_arg11)) ∧ InRange 25000 (m ((c.tc : Thread nD τ).loc main_arg13)) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  -- the last four conjuncts are the integer ones
  obtain ⟨e, h4⟩ := and_split _ _ _ e
  obtain ⟨e, h3⟩ := and_split _ _ _ e
  obtain ⟨e, h2⟩ := and_split _ _ _ e
  obtain ⟨-, h1⟩ := and_split _ _ _ e
  have a1 := Host.reduce_andi_all _ _ _ _ _ h1
  have a2 := Host.reduce_andi_all _ _ _ _ _ h2
  have a3 := Host.reduce_andi_all _ _ _ _ _ h3
  have a4 := Host.reduce_andi_all _ _ _ _ _ h4
  exact ⟨fun i => ⟨a1 i, a2 i⟩, fun i => ⟨a3 i, a4 i⟩⟩

/-! ## Layer 0 -/

/-- At every position of the column the gather position is the source index of some edge, chosen by the sign test. -/
theorem idx0_apply (src : IVec S400000 32) (i : S400000x1.Idx) :
    ∃ k, kIdx0 src i = Scalar.select (IntOp.cmpi .slt (src k) 0#32) (IntOp.addi (src k) 100000#32) (src k) := ⟨_, rfl⟩

/-- With every source index in range the range test of layer 0 is true at every edge. -/
theorem mask0_one (src : IVec S400000 32) (hs : InRange 100000 src) (j : S400000.Idx) : kMask0 src j = 1#1 := by
  unfold kMask0
  refine reduce_andi_one _ _ _ _ rfl (fun i => ?_) j
  show IntOp.andi (IntOp.cmpi .sge (kIdx0 src i) 0#32) (IntOp.cmpi .sle (kIdx0 src i) 99999#32) = 1#1
  obtain ⟨k, hk⟩ := idx0_apply src i
  obtain ⟨g0, g1⟩ := hs k
  obtain ⟨n0, n1⟩ := word_in_range (N := 100000) (M := 99999) (by norm_num) (by norm_num) (by norm_num) g0 g1
  rw [hk, n0, ValueIdx.select_zero]
  exact IntOp.andi_eq_one.2 ⟨g0, n1⟩

/-- Layer 0's edges: with every source index in range the taken rows are the gathered rows. -/
theorem take0_eq (h : FVec Ideal S100000x512 .f32) (src : IVec S400000 32) (hs : InRange 100000 src) :
    kTake0 h src = kGather0 h src := by
  have hm : kMask0 src = fun _ => 1#1 := funext (mask0_one src hs)
  funext i
  unfold kTake0 kGather0
  rw [ValueIdx.select_apply, hm]
  exact ValueIdx.select_one _ _

/-! ## Layer 1 -/

/-- At every position of the column the gather position is the source index of some edge, chosen by the sign test. -/
theorem idx1_apply (src : IVec S80000 32) (i : S80000x1.Idx) :
    ∃ k, kIdx1 src i = Scalar.select (IntOp.cmpi .slt (src k) 0#32) (IntOp.addi (src k) 25000#32) (src k) := ⟨_, rfl⟩

/-- With every source index in range the range test of layer 1 is true at every edge. -/
theorem mask1_one (src : IVec S80000 32) (hs : InRange 25000 src) (j : S80000.Idx) : kMask1 src j = 1#1 := by
  unfold kMask1
  refine reduce_andi_one _ _ _ _ rfl (fun i => ?_) j
  show IntOp.andi (IntOp.cmpi .sge (kIdx1 src i) 0#32) (IntOp.cmpi .sle (kIdx1 src i) 24999#32) = 1#1
  obtain ⟨k, hk⟩ := idx1_apply src i
  obtain ⟨g0, g1⟩ := hs k
  obtain ⟨n0, n1⟩ := word_in_range (N := 25000) (M := 24999) (by norm_num) (by norm_num) (by norm_num) g0 g1
  rw [hk, n0, ValueIdx.select_zero]
  exact IntOp.andi_eq_one.2 ⟨g0, n1⟩

/-- Layer 1's edges: with every source index in range the taken rows are the gathered rows. -/
theorem take1_eq (h : FVec Ideal S25000x1024 .f32) (src : IVec S80000 32) (hs : InRange 25000 src) :
    kTake1 h src = kGather1 h src := by
  have hm : kMask1 src = fun _ => 1#1 := funext (mask1_one src hs)
  funext i
  unfold kTake1 kGather1
  rw [ValueIdx.select_apply, hm]
  exact ValueIdx.select_one _ _

end Cert.Gcn.SourceRange

end
-- ==== Proof.Bridge.lean ====
/-
  The two programs' shared operations, matched: the kernel's program and the reference apply the same gather, the same
  scatter-add, the same degree count and the same transposes; the kernel's program lays a bias out as a row by a reshape where
  the reference broadcasts it, and inverts the clamped degree before the region where the reference divides by it.
-/
import proofs.«410037_j18141941859035_2_alg».proof.Proof.Gen.ReferenceIdeal.Read
import proofs.«410037_j18141941859035_2_alg».proof.Proof.KernelHost
import proofs.«410037_j18141941859035_2_alg».proof.Proof.Spec
import Idealize.ShloMosaic.Lib.Pipeline.Value
import Idealize.ShloMosaic.Lib.ValueIdx
import Idealize.ShloMosaic.Lib.ValueLayout

set_option maxRecDepth 16384

noncomputable section

namespace Cert.Gcn.Bridge

open Idealize.ShloMosaic Idealize.ShloMosaic.ValueIdx Cert.Gcn.KHost
open Cert.ReferenceIdeal.Read

/-- A vector laid out as a column by a reshape, read at row `i`: the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Transposed weights -/

theorem wt0 (x5 : FVec Ideal Cert.KernelIdeal.S512x512 .f32) :
    transpose Cert.KernelIdeal.S512x512 [1, 0] x5 Cert.KernelIdeal.Facts₀.transposes_S512x512_S512x512_1_0
      = val_main_v0 (F := Ideal) x5 := rfl

theorem wt1 (x7 : FVec Ideal Cert.KernelIdeal.S512x512 .f32) :
    transpose Cert.KernelIdeal.S512x512 [1, 0] x7 Cert.KernelIdeal.Facts₀.transposes_S512x512_S512x512_1_0
      = val_main_v27 (F := Ideal) x7 := rfl

theorem wt2 (x9 : FVec Ideal Cert.KernelIdeal.S64x1024 .f32) :
    transpose Cert.KernelIdeal.S1024x64 [1, 0] x9 Cert.KernelIdeal.Facts₀.transposes_S64x1024_S1024x64_1_0
      = val_main_v55 (F := Ideal) x9 := rfl

/-! ## Bias rows: a reshape to one row and a broadcast to one row hold the same entries -/

theorem row0 (x6 : FVec Ideal Cert.KernelIdeal.S512 .f32) :
    shapeCast Cert.KernelIdeal.S1x512 x6 Cert.KernelIdeal.Facts₀.shapeCasts_S512_S1x512 = val_main_v2 (F := Ideal) x6 := by
  funext i
  obtain ⟨u, j, rfl⟩ : ∃ (u : Fin 1) (j : Fin 512), i = ix2 u j := ⟨i 0, i 1, eq_ix2 i⟩
  rw [val_main_v2_apply]
  refine (shapeCast_a_1a_apply x6 _ u j).trans (congrArg x6 ?_)
  exact funext fun a => match a with | ⟨0, _⟩ => rfl

theorem row1 (x8 : FVec Ideal Cert.KernelIdeal.S512 .f32) :
    shapeCast Cert.KernelIdeal.S1x512 x8 Cert.KernelIdeal.Facts₀.shapeCasts_S512_S1x512 = val_main_v29 (F := Ideal) x8 := by
  funext i
  obtain ⟨u, j, rfl⟩ : ∃ (u : Fin 1) (j : Fin 512), i = ix2 u j := ⟨i 0, i 1, eq_ix2 i⟩
  rw [val_main_v29_apply]
  refine (shapeCast_a_1a_apply x8 _ u j).trans (congrArg x8 ?_)
  exact funext fun a => match a with | ⟨0, _⟩ => rfl

theorem row2 (x10 : FVec Ideal Cert.KernelIdeal.S64 .f32) :
    shapeCast Cert.KernelIdeal.S1x64 x10 Cert.KernelIdeal.Facts₀.shapeCasts_S64_S1x64 = val_main_v57 (F := Ideal) x10 := by
  funext i
  obtain ⟨u, j, rfl⟩ : ∃ (u : Fin 1) (j : Fin 64), i = ix2 u j := ⟨i 0, i 1, eq_ix2 i⟩
  rw [val_main_v57_apply]
  refine (shapeCast_a_1a_apply x10 _ u j).trans (congrArg x10 ?_)
  exact funext fun a => match a with | ⟨0, _⟩ => rfl

/-! ## Clamped degrees and their reciprocals -/

theorem deg0 (x12 : IVec Cert.KernelIdeal.S400000 32) : kDeg0 x12 = val_main_v22 (F := Ideal) x12 := rfl

theorem deg1 (x14 : IVec Cert.KernelIdeal.S80000 32) : kDeg1 x14 = val_main_v50 (F := Ideal) x14 := rfl

theorem inv0 (x12 : IVec Cert.KernelIdeal.S400000 32) : kInv0 x12 = recipCol (val_main_v22 (F := Ideal) x12) := by
  funext i
  obtain ⟨r, u, rfl⟩ : ∃ (r : Fin 25000) (u : Fin 1), i = ix2 r u := ⟨i 0, i 1, eq_ix2 i⟩
  unfold kInv0
  rw [deg0]
  generalize val_main_v22 (F := Ideal) x12 = d
  refine (shapeCast_a_a1_apply _ _ r u).trans ?_
  show Ideal.div (broadcastInDim Cert.KernelIdeal.S25000 ![] Cert.KernelIdeal.Facts₀.bcast_S_S25000
      (constant (F := Ideal) Cert.KernelIdeal.S_ .f32 0x3F800000#32) (ix1 r)) (d (ix1 r)) = Ideal.div one32 (d (ix1 r))
  rw [broadcastInDim_apply _ Cert.KernelIdeal.Facts₀.bcast_S_S25000 _ (ix1 r) (fun a => a.elim0) (fun a => a.elim0)]
  rfl

theorem inv1 (x14 : IVec Cert.KernelIdeal.S80000 32) : kInv1 x14 = recipCol (val_main_v50 (F := Ideal) x14) := by
  funext i
  obtain ⟨r, u, rfl⟩ : ∃ (r : Fin 5000) (u : Fin 1), i = ix2 r u := ⟨i 0, i 1, eq_ix2 i⟩
  unfold kInv1
  rw [deg1]
  generalize val_main_v50 (F := Ideal) x14 = d
  refine (shapeCast_a_a1_apply _ _ r u).trans ?_
  show Ideal.div (broadcastInDim Cert.KernelIdeal.S5000 ![] Cert.KernelIdeal.Facts₀.bcast_S_S5000
      (constant (F := Ideal) Cert.KernelIdeal.S_ .f32 0x3F800000#32) (ix1 r)) (d (ix1 r)) = Ideal.div one32 (d (ix1 r))
  rw [broadcastInDim_apply _ Cert.KernelIdeal.Facts₀.bcast_S_S5000 _ (ix1 r) (fun a => a.elim0) (fun a => a.elim0)]
  rfl

/-! ## Rows gathered along the edge sources and summed per destination -/

theorem sums0 (x0 x1 : FVec Ideal Cert.KernelIdeal.S100000x512 .f32) (x5 : FVec Ideal Cert.KernelIdeal.S512x512 .f32)
    (x6 : FVec Ideal Cert.KernelIdeal.S512 .f32) (x11 x12 : IVec Cert.KernelIdeal.S400000 32) :
    kScatter0 (kGather0 (val_main_v6 (F := Ideal) x0 x1 x5 x6) x11) x12 = val_main_v16 (F := Ideal) x0 x1 x5 x6 x11 x12 := rfl

theorem sums1 (x0 x1 : FVec Ideal Cert.KernelIdeal.S100000x512 .f32) (x2 : FVec Ideal Cert.KernelIdeal.S25000x512 .f32)
    (x3 : FVec Ideal Cert.KernelIdeal.S25000x1024 .f32) (x5 : FVec Ideal Cert.KernelIdeal.S512x512 .f32)
    (x6 : FVec Ideal Cert.KernelIdeal.S512 .f32) (x7 : FVec Ideal Cert.KernelIdeal.S512x512 .f32)
    (x8 : FVec Ideal Cert.KernelIdeal.S512 .f32) (x11 x12 : IVec Cert.KernelIdeal.S400000 32)
    (x13 x14 : IVec Cert.KernelIdeal.S80000 32) :
    kScatter1 (kGather1 (val_main_v34 (F := Ideal) x0 x1 x2 x3 x5 x6 x7 x8 x11 x12) x13) x14
      = val_main_v44 (F := Ideal) x0 x1 x2 x3 x5 x6 x7 x8 x11 x12 x13 x14 := rfl

end Cert.Gcn.Bridge

end
-- ==== Proof.Layer0Ref.lean ====
/-
  Layer 0 of the reference, read one operation at a time: the host program's stage is the specification's function of the
  earlier stages.
-/
import proofs.«410037_j18141941859035_2_alg».proof.Proof.Gen.ReferenceIdeal.Read
import proofs.«410037_j18141941859035_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Gcn.R0

open Cert.ReferenceIdeal Cert.ReferenceIdeal.Gen Cert.ReferenceIdeal.Read Idealize.ShloMosaic Idealize.ShloMosaic.TcCoe Idealize.SL.Sem
open Idealize.ShloMosaic.ValueIdx

/-- The left operand of the dot product is read along row `r`. -/
theorem lidx_eq (r : Fin 100000) (j k : Fin 512) : lidx_main_v1 (ix2 r j) k = ix2 r k :=
  funext fun a => Fin.ext (by match a with | ⟨0, _⟩ => rfl | ⟨1, _⟩ => rfl)

/-- The right operand of the dot product is read down column `j`. -/
theorem ridx_eq (r : Fin 100000) (j k : Fin 512) : ridx_main_v1 (ix2 r j) k = ix2 k j :=
  funext fun a => Fin.ext (by match a with | ⟨0, _⟩ => rfl | ⟨1, _⟩ => rfl)

/-- The bias row is read at its only row and at column `j`. -/
theorem bidx_eq (r : Fin 100000) (j : Fin 512) : idx_main_v3 (ix2 r j) = ix2 0 j :=
  funext fun a => Fin.ext (by match a with | ⟨0, _⟩ => rfl | ⟨1, _⟩ => rfl)

/-- The reference's first layer: the dot product with the transposed weights plus the broadcast bias, rectified, minus the
    history, is layer 0 of the specification over the transposed weights and the bias laid out as a row. -/
theorem value (x0 x1 : (⟨S100000x512, .f32⟩ : BufTy).Contents (Elt Ideal)) (x5 : (⟨S512x512, .f32⟩ : BufTy).Contents (Elt Ideal)) (x6 : (⟨S512, .f32⟩ : BufTy).Contents (Elt Ideal)) :
    val_main_v6 (F := Ideal) x0 x1 x5 x6 = lin0 x0 (val_main_v0 (F := Ideal) x5) (val_main_v2 (F := Ideal) x6) x1 := by
  funext i
  obtain ⟨r, j, rfl⟩ : ∃ (r : Fin 100000) (j : Fin 512), i = ix2 r j := ⟨i 0, i 1, eq_ix2 i⟩
  show _ = lin0At x0 (val_main_v0 (F := Ideal) x5) (val_main_v2 (F := Ideal) x6) x1 r j
  unfold lin0At affAt
  rw [val_main_v6_apply, val_main_v5_apply, val_main_v4_apply, val_main_v1_apply, val_main_v3_apply,
    val_main_call0_v0_apply, val_main_call0_cst_apply]
  simp only [Ideal.subf_def, Ideal.maximumf_def, Ideal.addf_def, Ideal.ofBits_def, lidx_eq, ridx_eq, bidx_eq]

end Cert.Gcn.R0

end
-- ==== Proof.Layer1Ref.lean ====
/-
  Layer 1 of the reference, read one operation at a time: the host program's stage is the specification's function of the
  earlier stages.
-/
import proofs.«410037_j18141941859035_2_alg».proof.Proof.Gen.ReferenceIdeal.Read
import proofs.«410037_j18141941859035_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Gcn.R1

open Cert.ReferenceIdeal Cert.ReferenceIdeal.Gen Cert.ReferenceIdeal.Read Idealize.ShloMosaic Idealize.ShloMosaic.TcCoe Idealize.SL.Sem
open Idealize.ShloMosaic.ValueIdx

/-- A quotient by a nonzero extended real is the product with the reciprocal of the divisor: both sides are `s * d⁻¹`. -/
theorem div_eq_mul_recip (s d : EReal) (hd : d ≠ 0) : Ideal.div s d = s * Ideal.div one32 d := by
  unfold Ideal.div
  rw [if_neg hd, if_neg hd, show one32 = 1 from Ideal.ofBits_one_f32, one_mul]

/-- The clamped degree is the maximum of the degree and one, so it is at least one and never zero. -/
theorem deg_ne_zero (x12 : (⟨S400000, .i32⟩ : BufTy).Contents (Elt Ideal)) (j : S25000.Idx) :
    (val_main_v22 (F := Ideal) x12 j : EReal) ≠ 0 := by
  rw [val_main_v22_apply, val_main_v21_apply, val_main_cst_3_apply]
  simp only [Ideal.maximumf_def, Ideal.ofBits_def, Ideal.ofBits_one_f32]
  intro h
  have h1 : (1 : EReal) ≤ max (val_main_v20 (F := Ideal) x12 j) 1 := le_max_right _ _
  rw [h] at h1
  exact absurd h1 (not_le.2 zero_lt_one)

/-- The mean aggregate of the reference at an entry: the segment sum over the clamped degree plus the history aggregate is the
    segment sum times the reciprocal of the clamped degree plus the history aggregate. -/
theorem v26_at (x0 x1 : (⟨S100000x512, .f32⟩ : BufTy).Contents (Elt Ideal)) (x2 : (⟨S25000x512, .f32⟩ : BufTy).Contents (Elt Ideal))
    (x5 : (⟨S512x512, .f32⟩ : BufTy).Contents (Elt Ideal)) (x6 : (⟨S512, .f32⟩ : BufTy).Contents (Elt Ideal))
    (x11 x12 : (⟨S400000, .i32⟩ : BufTy).Contents (Elt Ideal)) (r : Fin 25000) (k : Fin 512) :
    val_main_v26 (F := Ideal) x0 x1 x2 x5 x6 x11 x12 (ix2 r k)
      = aggAt (val_main_v16 (F := Ideal) x0 x1 x5 x6 x11 x12) (recipCol (val_main_v22 (F := Ideal) x12)) x2 r k := by
  rw [val_main_v26_apply, val_main_v25_apply, val_main_v24_apply, val_main_v23_apply]
  have e : idx_main_v23 (idx_main_v24 (ix2 r k)) = ix1 r := funext fun a => by
    match a with | ⟨0, _⟩ => rfl
  rw [e]
  simp only [Ideal.addf_def, Ideal.hostDivf_def]
  rw [div_eq_mul_recip _ _ (deg_ne_zero x12 (ix1 r))]
  rfl

/-- The affine map of the reference at an entry: the dot product of the aggregate's row with the transposed weight's column plus
    the bias is the specification's affine map of the aggregate. -/
theorem v31_at (x0 x1 : (⟨S100000x512, .f32⟩ : BufTy).Contents (Elt Ideal)) (x2 : (⟨S25000x512, .f32⟩ : BufTy).Contents (Elt Ideal))
    (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal))
    (x11 x12 : (⟨S400000, .i32⟩ : BufTy).Contents (Elt Ideal)) (r : Fin 25000) (j : Fin 512) :
    val_main_v31 (F := Ideal) x0 x1 x2 x5 x6 x7 x8 x11 x12 (ix2 r j)
      = affAt (agg (val_main_v16 (F := Ideal) x0 x1 x5 x6 x11 x12) (recipCol (val_main_v22 (F := Ideal) x12)) x2)
          (val_main_v27 (F := Ideal) x7) (val_main_v29 (F := Ideal) x8) r j := by
  rw [val_main_v31_apply, val_main_v28_apply, val_main_v30_apply]
  have el : ∀ k : Fin 512, lidx_main_v28 (ix2 r j) k = ix2 r k := fun k => funext fun a => Fin.ext (by
    match a with | ⟨0, _⟩ => rfl | ⟨1, _⟩ => rfl)
  have er : ∀ k : Fin 512, ridx_main_v28 (ix2 r j) k = ix2 k j := fun k => funext fun a => Fin.ext (by
    match a with | ⟨0, _⟩ => rfl | ⟨1, _⟩ => rfl)
  have eb : idx_main_v30 (ix2 r j) = ix2 (0 : Fin 1) j := funext fun a => Fin.ext (by
    match a with | ⟨0, _⟩ => rfl | ⟨1, _⟩ => rfl)
  simp only [el, er, eb, v26_at, Ideal.addf_def]
  rfl

/-- A column of the right half, shifted past the left half, is a column of the joined array. -/
theorem shift_lt (j' : Fin 512) : 512 + j'.val < 1024 := by omega

/-- Every column of the joined array from 512 on is a column of the right half shifted past the left half. -/
theorem split_col (j : Fin 1024) (h : ¬ j.val < 512) : ∃ j' : Fin 512, j = ⟨512 + j'.val, shift_lt j'⟩ :=
  ⟨⟨j.val - 512, by omega⟩, Fin.ext (by show j.val = 512 + (j.val - 512); omega)⟩

/-- Shifting a column past the left half and back is the identity. -/
theorem unshift (j' : Fin 512) (h : 512 + j'.val - 512 < 512) : j' = ⟨512 + j'.val - 512, h⟩ :=
  Fin.ext (by show j'.val = 512 + j'.val - 512; omega)

/-- The left half of the joined array: at a column below 512 the reference holds the affine result minus the history. -/
theorem left_half (x0 x1 : (⟨S100000x512, .f32⟩ : BufTy).Contents (Elt Ideal)) (x2 : (⟨S25000x512, .f32⟩ : BufTy).Contents (Elt Ideal)) (x3 : (⟨S25000x1024, .f32⟩ : BufTy).Contents (Elt Ideal))
    (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal))
    (x11 x12 : (⟨S400000, .i32⟩ : BufTy).Contents (Elt Ideal)) (r : Fin 25000) (j : Fin 1024) (hlt : j.val < 512) :
    val_main_v34 (F := Ideal) x0 x1 x2 x3 x5 x6 x7 x8 x11 x12 (ix2 r j)
      = lin1LeftAt (val_main_v16 (F := Ideal) x0 x1 x5 x6 x11 x12) (recipCol (val_main_v22 (F := Ideal) x12)) x2
          (val_main_v27 (F := Ideal) x7) (val_main_v29 (F := Ideal) x8) x3 r ⟨j.val, hlt⟩ := by
  rw [val_main_v34_apply]
  have hc : val_main_v33 (F := Ideal) x0 x1 x2 x5 x6 x7 x8 x11 x12 (ix2 r j)
      = val_main_v31 (F := Ideal) x0 x1 x2 x5 x6 x7 x8 x11 x12 (ix2 r ⟨j.val, hlt⟩) := by
    unfold val_main_v33
    exact concatenate_pair_apply_left (t := S25000x1024) (s₁ := S25000x512) (s₂ := S25000x512) _ _ _ _ _ rfl _ (fun b => by
      match b with
      | ⟨0, _⟩ => rfl
      | ⟨1, _⟩ => rfl)
  rw [hc, v31_at]
  rfl

/-- The right half of the joined array: at a column from 512 on the reference holds the rectified affine result minus the
    history. -/
theorem right_half (x0 x1 : (⟨S100000x512, .f32⟩ : BufTy).Contents (Elt Ideal)) (x2 : (⟨S25000x512, .f32⟩ : BufTy).Contents (Elt Ideal)) (x3 : (⟨S25000x1024, .f32⟩ : BufTy).Contents (Elt Ideal))
    (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal))
    (x11 x12 : (⟨S400000, .i32⟩ : BufTy).Contents (Elt Ideal)) (r : Fin 25000) (j' : Fin 512) :
    val_main_v34 (F := Ideal) x0 x1 x2 x3 x5 x6 x7 x8 x11 x12 (ix2 r (⟨512 + j'.val, shift_lt j'⟩ : Fin 1024))
      = lin1RightAt (val_main_v16 (F := Ideal) x0 x1 x5 x6 x11 x12) (recipCol (val_main_v22 (F := Ideal) x12)) x2
          (val_main_v27 (F := Ideal) x7) (val_main_v29 (F := Ideal) x8) x3 r j' := by
  rw [val_main_v34_apply]
  have hc : val_main_v33 (F := Ideal) x0 x1 x2 x5 x6 x7 x8 x11 x12 (ix2 r (⟨512 + j'.val, shift_lt j'⟩ : Fin 1024))
      = val_main_v32 (F := Ideal) x0 x1 x2 x5 x6 x7 x8 x11 x12 (ix2 r j') := by
    unfold val_main_v33
    exact concatenate_pair_apply_right (t := S25000x1024) (s₁ := S25000x512) (s₂ := S25000x512) _ _ _ _ _ rfl rfl _
      (fun b hb => by
        match b with
        | ⟨0, _⟩ => rfl
        | ⟨1, _⟩ => exact absurd rfl hb)
      (by show j'.val + 512 = 512 + j'.val; omega)
  rw [hc, val_main_v32_apply, v31_at, val_main_call1_v0_apply, val_main_call1_cst_apply]
  rfl

/-- The specification's layer 1 at a column below 512 is its left half. -/
theorem lin1_left (s : Mat 25000 512) (q : Mat 25000 1) (a : Mat 25000 512) (wt : Mat 512 512) (b : Mat 1 512)
    (h : Mat 25000 1024) (r : Fin 25000) (j : Fin 1024) (hlt : j.val < 512) :
    lin1 s q a wt b h (ix2 r j) = lin1LeftAt s q a wt b h r ⟨j.val, hlt⟩ := by
  unfold lin1
  exact dif_pos hlt

/-- The specification's layer 1 at a column from 512 on is its right half at the column 512 less. -/
theorem lin1_right (s : Mat 25000 512) (q : Mat 25000 1) (a : Mat 25000 512) (wt : Mat 512 512) (b : Mat 1 512)
    (h : Mat 25000 1024) (r : Fin 25000) (j' : Fin 512) :
    lin1 s q a wt b h (ix2 r (⟨512 + j'.val, shift_lt j'⟩ : Fin 1024)) = lin1RightAt s q a wt b h r j' := by
  have hge : ¬ (512 + j'.val < 512) := by omega
  unfold lin1
  exact (dif_neg hge).trans (congrArg (lin1RightAt s q a wt b h r) (unshift j' _).symm)

/-- The reference's second layer: the segment sums divided by the clamped degrees plus the history aggregate, through the dot
    product and bias, then the affine result and its rectified copy joined side by side minus the history, is layer 1 of the
    specification over the reciprocal column of the clamped degrees (a quotient by a degree that is at least one is the
    product with its reciprocal). -/
theorem value (x0 x1 : (⟨S100000x512, .f32⟩ : BufTy).Contents (Elt Ideal)) (x2 : (⟨S25000x512, .f32⟩ : BufTy).Contents (Elt Ideal)) (x3 : (⟨S25000x1024, .f32⟩ : BufTy).Contents (Elt Ideal))
    (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal))
    (x11 x12 : (⟨S400000, .i32⟩ : BufTy).Contents (Elt Ideal)) :
    val_main_v34 (F := Ideal) x0 x1 x2 x3 x5 x6 x7 x8 x11 x12
      = lin1 (val_main_v16 (F := Ideal) x0 x1 x5 x6 x11 x12) (recipCol (val_main_v22 (F := Ideal) x12)) x2
          (val_main_v27 (F := Ideal) x7) (val_main_v29 (F := Ideal) x8) x3 := by
  funext i
  obtain ⟨r, j, rfl⟩ : ∃ (r : Fin 25000) (j : Fin 1024), i = ix2 r j := ⟨i 0, i 1, eq_ix2 i⟩
  by_cases hlt : j.val < 512
  · rw [lin1_left _ _ _ _ _ _ r j hlt]
    exact left_half x0 x1 x2 x3 x5 x6 x7 x8 x11 x12 r j hlt
  · obtain ⟨j', rfl⟩ := split_col j hlt
    rw [lin1_right _ _ _ _ _ _ r j']
    exact right_half x0 x1 x2 x3 x5 x6 x7 x8 x11 x12 r j'

end Cert.Gcn.R1

end
-- ==== Proof.Layer2Ref.lean ====
/-
  Layer 2 of the reference, read one operation at a time: the host program's stage is the specification's function of the
  earlier stages.
-/
import proofs.«410037_j18141941859035_2_alg».proof.Proof.Gen.ReferenceIdeal.Read
import proofs.«410037_j18141941859035_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Gcn.R2

open Cert.ReferenceIdeal Cert.ReferenceIdeal.Gen Cert.ReferenceIdeal.Read Idealize.ShloMosaic Idealize.ShloMosaic.TcCoe Idealize.SL.Sem
open Idealize.ShloMosaic.ValueIdx

/-- Dividing by a nonzero extended real is multiplying by its reciprocal: both sides are `s * d⁻¹`. -/
theorem div_eq_mul_recip (s d : EReal) (hd : d ≠ 0) : Ideal.div s d = s * Ideal.div 1 d := by
  unfold Ideal.div
  rw [if_neg hd, if_neg hd, one_mul]

/-- The clamped degree is the maximum of a count and one, hence at least one, hence not zero. -/
theorem deg_ne_zero (x14 : (⟨S80000, .i32⟩ : BufTy).Contents (Elt Ideal)) (j : S5000.Idx) :
    val_main_v50 (F := Ideal) x14 j ≠ 0 := by
  rw [val_main_v50_apply, val_main_v49_apply, val_main_cst_9_apply]
  simp only [Ideal.maximumf_def, Ideal.ofBits_def, Ideal.ofBits_one_f32]
  exact ne_of_gt (lt_of_lt_of_le zero_lt_one (le_max_right _ _))

/-- The left operand of the dot product is read along row `r`. -/
theorem lidx_eq (r : Fin 5000) (j : Fin 64) (k : Fin 1024) : lidx_main_v56 (ix2 r j) k = ix2 r k :=
  funext fun a => Fin.ext (by match a with | ⟨0, _⟩ => rfl | ⟨1, _⟩ => rfl)

/-- The right operand of the dot product is read down column `j`. -/
theorem ridx_eq (r : Fin 5000) (j : Fin 64) (k : Fin 1024) : ridx_main_v56 (ix2 r j) k = ix2 k j :=
  funext fun a => Fin.ext (by match a with | ⟨0, _⟩ => rfl | ⟨1, _⟩ => rfl)

/-- The bias row is read at its only row and at column `j`. -/
theorem bidx_eq (r : Fin 5000) (j : Fin 64) : idx_main_v58 (ix2 r j) = ix2 0 j :=
  funext fun a => Fin.ext (by match a with | ⟨0, _⟩ => rfl | ⟨1, _⟩ => rfl)

/-- The degree broadcast to a column and then across the row is read at the row's own entry. -/
theorem didx_eq (r : Fin 5000) (k : Fin 1024) : idx_main_v51 (idx_main_v52 (ix2 r k)) = ix1 r :=
  funext fun a => Fin.ext (by match a with | ⟨0, _⟩ => rfl)

/-- The reference's third layer: the segment sums divided by the clamped degrees plus the history aggregate, through the dot
    product and bias, is layer 2 of the specification over the reciprocal column of the clamped degrees. -/
theorem value (x0 x1 : (⟨S100000x512, .f32⟩ : BufTy).Contents (Elt Ideal)) (x2 : (⟨S25000x512, .f32⟩ : BufTy).Contents (Elt Ideal)) (x3 : (⟨S25000x1024, .f32⟩ : BufTy).Contents (Elt Ideal))
    (x4 : (⟨S5000x1024, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal))
    (x8 : (⟨S512, .f32⟩ : BufTy).Contents (Elt Ideal)) (x9 : (⟨S64x1024, .f32⟩ : BufTy).Contents (Elt Ideal)) (x10 : (⟨S64, .f32⟩ : BufTy).Contents (Elt Ideal))
    (x11 x12 : (⟨S400000, .i32⟩ : BufTy).Contents (Elt Ideal)) (x13 x14 : (⟨S80000, .i32⟩ : BufTy).Contents (Elt Ideal)) :
    val_main_v59 (F := Ideal) x0 x1 x2 x3 x4 x5 x6 x7 x8 x9 x10 x11 x12 x13 x14
      = lin2 (val_main_v44 (F := Ideal) x0 x1 x2 x3 x5 x6 x7 x8 x11 x12 x13 x14) (recipCol (val_main_v50 (F := Ideal) x14)) x4
          (val_main_v55 (F := Ideal) x9) (val_main_v57 (F := Ideal) x10) := by
  funext i
  obtain ⟨r, j, rfl⟩ : ∃ (r : Fin 5000) (j : Fin 64), i = ix2 r j := ⟨i 0, i 1, eq_ix2 i⟩
  show _ = affAt (agg (val_main_v44 (F := Ideal) x0 x1 x2 x3 x5 x6 x7 x8 x11 x12 x13 x14) (recipCol (val_main_v50 (F := Ideal) x14)) x4)
    (val_main_v55 (F := Ideal) x9) (val_main_v57 (F := Ideal) x10) r j
  unfold affAt
  rw [val_main_v59_apply, val_main_v56_apply, val_main_v58_apply]
  simp only [Ideal.addf_def, bidx_eq]
  refine congrArg₂ (· + ·) (Finset.sum_congr rfl fun k _ => ?_) rfl
  rw [lidx_eq, ridx_eq, val_main_v54_apply, val_main_v53_apply, val_main_v52_apply, val_main_v51_apply, didx_eq]
  show (Ideal.div _ _ + _) * _ = (_ * Ideal.div one32 _ + _) * _
  rw [div_eq_mul_recip _ _ (deg_ne_zero x14 (ix1 r)), show one32 = 1 from Ideal.ofBits_one_f32]

end Cert.Gcn.R2

end
-- ==== Proof.ValueEq.lean ====
/-
  The kernel's program and the reference compute one function of the arguments: layer by layer the kernel's region and the
  reference's host operations are the same layer of the specification, over stages that are themselves equal — the same
  gathered rows (every source index lies inside its array, so the kernel's program never takes a fill row), the same segment
  sums, the same transposed weights and bias rows, and the reciprocal of a clamped degree where the reference divides by it.
-/
import proofs.«410037_j18141941859035_2_alg».proof.Proof.KernelChain
import proofs.«410037_j18141941859035_2_alg».proof.Proof.Bridge
import proofs.«410037_j18141941859035_2_alg».proof.Proof.SourceRange
import proofs.«410037_j18141941859035_2_alg».proof.Proof.Layer0Ref
import proofs.«410037_j18141941859035_2_alg».proof.Proof.Layer1Ref
import proofs.«410037_j18141941859035_2_alg».proof.Proof.Layer2Ref

set_option maxRecDepth 16384

noncomputable section

namespace Cert.Gcn.ValueEq

open Cert.KernelIdeal Cert.Gcn.KHost Cert.Gcn.KChain Cert.Gcn.SourceRange Cert.ReferenceIdeal.Read
open Idealize.ShloMosaic Idealize.ShloMosaic.TcCoe Idealize.SL.Sem

variable (m : (ℓ : Loc nD τ sig) → Buf (Elt Ideal) ℓ)

/-- Layer 0: the kernel's first region and the reference's first stage. -/
theorem h0_eq (c : Dev nD) : kH0 m c = val_main_v6 (F := Ideal) (m ((c.tc : Thread nD τ).loc main_arg0)) (m ((c.tc : Thread nD τ).loc main_arg1)) (m ((c.tc : Thread nD τ).loc main_arg5)) (m ((c.tc : Thread nD τ).loc main_arg6)) := by
  unfold kH0
  rw [Bridge.wt0, Bridge.row0]
  exact (Cert.Gcn.R0.value _ _ _ _).symm

/-- Layer 1, with the first edge set's source indices in range. -/
theorem h1_eq (c : Dev nD) (hr0 : InRange 100000 (m ((c.tc : Thread nD τ).loc main_arg11))) :
    kH1 m c = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  unfold kH1
  rw [take0_eq _ _ hr0, h0_eq, Bridge.sums0, Bridge.inv0, Bridge.wt1, Bridge.row1]
  exact (Cert.Gcn.R1.value _ _ _ _ _ _ _ _ _ _).symm

/-- Layer 2, with both edge sets' source indices in range: the kernel's result is the reference's. -/
theorem out_eq (c : Dev nD) (hr0 : InRange 100000 (m ((c.tc : Thread nD τ).loc main_arg11))) (hr1 : InRange 25000 (m ((c.tc : Thread nD τ).loc main_arg13))) :
    kOut m c = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold kOut
  rw [take1_eq _ _ hr1, h1_eq m c hr0, Bridge.sums1, Bridge.inv1, Bridge.wt2, Bridge.row2]
  exact (Cert.Gcn.R2.value _ _ _ _ _ _ _ _ _ _ _ _ _ _ _).symm

end Cert.Gcn.ValueEq

end
-- ==== Proof.lean ====
/-
  The certificate: a three-layer sampled graph convolution, the kernel's three regions against the reference's host program.

  Both programs compute, over the extended reals,
    h0 = max (x · W0ᵀ + b0) 0 - hist0,
    h1 = [y1, max y1 0] - hist1   with  y1 = (mean of h0 along the first edge set + a0) · W1ᵀ + b1,
    out = (mean of h1 along the second edge set + a1) · W2ᵀ + b2,
  where the mean along an edge set gathers rows at the edges' sources, sums them per destination and divides by the
  destination's in-degree clamped below by one.  The kernel's program multiplies by the reciprocal of the clamped degree where
  the reference divides (equal, the degree being at least one), takes its rows with a range test that is true at every edge
  under the precondition (every source index a row of the array it indexes), and runs each affine map block by block over the
  rows.  The frames of the two kernel programs are the generated ones; the reference's is its generated run; the ideal pass
  rewrote nothing, so the idealization claim is trivial.
-/
import proofs.«410037_j18141941859035_2_alg».proof.Defs
import proofs.«410037_j18141941859035_2_alg».proof.Proof.Gen.Kernel
import proofs.«410037_j18141941859035_2_alg».proof.Proof.Gen.Kernel.Frame
import proofs.«410037_j18141941859035_2_alg».proof.Proof.Gen.KernelIdeal
import proofs.«410037_j18141941859035_2_alg».proof.Proof.Gen.KernelIdeal.Frame
import proofs.«410037_j18141941859035_2_alg».proof.Proof.Gen.ReferenceIdeal
import proofs.«410037_j18141941859035_2_alg».proof.Proof.Gen.ReferenceIdeal.Run
import proofs.«410037_j18141941859035_2_alg».proof.Proof.Gen.ReferenceIdeal.Read
import proofs.«410037_j18141941859035_2_alg».proof.Proof.Gen.Pre_finite_inputs
import proofs.«410037_j18141941859035_2_alg».proof.Proof.KernelRun
import proofs.«410037_j18141941859035_2_alg».proof.Proof.KernelChain
import proofs.«410037_j18141941859035_2_alg».proof.Proof.SourceRange
import proofs.«410037_j18141941859035_2_alg».proof.Proof.ValueEq
import Idealize.ShloMosaic.Adequacy
import Idealize.ShloMosaic.Init

set_option maxRecDepth 16384

noncomputable section

namespace Cert.Proof

open Idealize.ShloMosaic Idealize.ShloMosaic.TcCoe Idealize.SL.Sem

/-! ## The kernel's run with its result named -/

section KernelValue

open Cert.KernelIdeal Cert.KernelIdeal.Gen

/-- Every weakly fair execution of the idealized kernel's program terminates with the result array at the three layers
    composed over the argument arrays, and the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v34) = Cert.Gcn.KChain.kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v34 (by decide))).trans (Cert.Gcn.KChain.result m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c)⟩)
    (Cert.KernelIdeal.GenRun.run_all (F := Ideal) m ρ)

end KernelValue

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's run names its result as the
    three layers over the arguments, the reference's run as its composed host term, and the two are one function where
    every source index is in range. -/
theorem algebraic : Cert.algebraic_KernelIdeal_ReferenceIdeal := by
  intro m ρ m' ρ' hpre hagree
  refine ⟨fun c => Cert.Gcn.KChain.kOut m c, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hr0, hr1⟩ := Cert.Gcn.SourceRange.of_pre m hpre c
  obtain ⟨e0, e1, e2, e3, e4, e5, e6, e7, e8, e9, e10, e11, e12, e13, e14⟩ := hagree c
  rw [Cert.ReferenceIdeal.Read.val_main_v59_eq, e0, e1, e2, e3, e4, e5, e6, e7, e8, e9, e10, e11, e12, e13, e14]
  exact (Cert.Gcn.ValueEq.out_eq m c hr0 hr1).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
